-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64x1 .f32) (main_arg15 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_v63 main_v67

def fn_part2 {F : FTy → Type} [FloatOps F] (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1000000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64x1 .f32) (main_arg15 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S1x1 : Shape := ⟨2, ![1, 1]⟩
abbrev S8000x64 : Shape := ⟨2, ![8000, 64]⟩
abbrev S8000x1 : Shape := ⟨2, ![8000, 1]⟩
abbrev S8000 : Shape := ⟨1, ![8000]⟩

abbrev nBuf : Space → Nat
  | .hbm => 52
  | .vmem => 21
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64x1, .f32⟩
  | .hbm, ⟨15, _⟩ => ⟨S1, .f32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .i32⟩
  | .hbm, ⟨30, _⟩ => ⟨S1000000, .i32⟩
  | .hbm, ⟨31, _⟩ => ⟨S1000000, .i1⟩
  | .hbm, ⟨32, _⟩ => ⟨S_, .i32⟩
  | .hbm, ⟨33, _⟩ => ⟨S1000000, .i32⟩
  | .hbm, ⟨34, _⟩ => ⟨S1000000, .i32⟩
  | .hbm, ⟨35, _⟩ => ⟨S1000000, .i32⟩
  | .hbm, ⟨36, _⟩ => ⟨S1000000x1, .i32⟩
  | .hbm, ⟨37, _⟩ => ⟨S1000000x64, .f32⟩
  | .hbm, ⟨38, _⟩ => ⟨S64x64, .f32⟩
  | .hbm, ⟨39, _⟩ => ⟨S64x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x1, .f32⟩
  | .hbm, ⟨50, _⟩ => ⟨S1000000x1, .f32⟩
  | .hbm, ⟨51, _⟩ => ⟨S1000000, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S64x1, .f32⟩
  | .local _ .vmem, ⟨18, _⟩ => ⟨S1x1, .f32⟩
  | .local _ .vmem, ⟨19, _⟩ => ⟨S8000x1, .f32⟩
  | .local _ .vmem, ⟨20, _⟩ => ⟨S8000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8000x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S128x64_S64x64_0_0 : S128x64.Slices ![0, 0] S64x64
  slices_S128x64_S64x64_64_0 : S128x64.Slices ![64, 0] S64x64
  shapeCasts_S64_S1x64 : S64.ShapeCasts S1x64
  shapeCasts_S1_S1x1 : S1.ShapeCasts S1x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  reduces_S8000x64_S8000 : S8000x64.Reduces [1] S8000
  shapeCasts_S8000_S8000x1 : S8000.ShapeCasts S8000x1
  broadcasts_S8000x1_S8000x64 : S8000x1.Broadcasts S8000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S8000x64_S64x64_S8000x64_1_0_0_1_n_n_wf : DotDims.WF S8000x64 S64x64 S8000x64 [1] [0] [0] [1] [] []
  dot_S8000x64_S64x1_S8000x1_1_0_0_1_n_n_wf : DotDims.WF S8000x64 S64x1 S8000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x1.size a ≤ S64x1.size a
  hwx0_15 : ∀ i : grid0.Coords, EltTy.bits .f32 = 32 ∨ (Rect.block (s := S64x1) S64x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8000x1.size a ≤ S1000000x1.size a
  hwx0_17 : ∀ i : grid0.Coords, EltTy.bits .f32 = 32 ∨ (Rect.block (s := S1000000x1) S8000x1.size (cc0_transform_17 i) (hinb0_17 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x64_S64x1_S8000x1_1_0_0_1_n_n : DotDims S8000x64 S64x1 S8000x1 where
  lhsContracting := [1]
  rhsContracting := [0]
  lhsNonContracting := [0]
  rhsNonContracting := [1]
  lhsBatch := []
  rhsBatch := []
  wf := dot_S8000x64_S64x1_S8000x1_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v26) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v27) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v28) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg14) S64x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v29) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v30) S8000x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1000000x128 : Shape := ⟨2, ![1000000, 128]⟩
abbrev S1x64 : Shape := ⟨2, ![1, 64]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S100000x64, .f32⟩
  | 1 => ⟨S2x1000000, .i32⟩
  | 2 => ⟨S128x64, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64x1, .f32⟩
  | 15 => ⟨S1, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .i32⟩
  | 30 => ⟨S1000000, .i32⟩
  | 31 => ⟨S1000000, .i1⟩
  | 32 => ⟨S_, .i32⟩
  | 33 => ⟨S1000000, .i32⟩
  | 34 => ⟨S1000000, .i32⟩
  | 35 => ⟨S1000000, .i32⟩
  | 36 => ⟨S1000000x1, .i32⟩
  | 37 => ⟨S1000000x64, .f32⟩
  | 38 => ⟨S1000000x128, .f32⟩
  | 39 => ⟨S1000000x64, .f32⟩
  | 40 => ⟨S1x64, .f32⟩
  | 41 => ⟨S1000000x64, .f32⟩
  | 42 => ⟨S1000000x64, .f32⟩
  | 43 => ⟨S_, .f32⟩
  | 44 => ⟨S1000000, .f32⟩
  | 45 => ⟨S1000000x1, .f32⟩
  | 46 => ⟨S_, .f32⟩
  | 47 => ⟨S1000000x1, .f32⟩
  | 48 => ⟨S1000000x1, .f32⟩
  | 49 => ⟨S1000000x64, .f32⟩
  | 50 => ⟨S1000000x64, .f32⟩
  | 51 => ⟨S1000000x64, .f32⟩
  | 52 => ⟨S_, .f32⟩
  | 53 => ⟨S1000000, .f32⟩
  | 54 => ⟨S1000000x1, .f32⟩
  | 55 => ⟨S_, .f32⟩
  | 56 => ⟨S1000000x1, .f32⟩
  | 57 => ⟨S1000000x1, .f32⟩
  | 58 => ⟨S1000000x64, .f32⟩
  | 59 => ⟨S1000000x64, .f32⟩
  | 60 => ⟨S_, .f32⟩
  | 61 => ⟨S1000000x1, .f32⟩
  | 62 => ⟨S1000000x1, .f32⟩
  | 63 => ⟨S1000000x1, .f32⟩
  | 64 => ⟨S1000000x64, .f32⟩
  | 65 => ⟨S1000000x64, .f32⟩
  | 66 => ⟨S1x64, .f32⟩
  | 67 => ⟨S1000000x64, .f32⟩
  | 68 => ⟨S1000000x64, .f32⟩
  | 69 => ⟨S1x64, .f32⟩
  | 70 => ⟨S1000000x64, .f32⟩
  | 71 => ⟨S1000000x64, .f32⟩
  | 72 => ⟨S1000000x64, .f32⟩
  | 73 => ⟨S1000000x64, .f32⟩
  | 74 => ⟨S1x64, .f32⟩
  | 75 => ⟨S1000000x64, .f32⟩
  | 76 => ⟨S1000000x64, .f32⟩
  | 77 => ⟨S_, .f32⟩
  | 78 => ⟨S1000000, .f32⟩
  | 79 => ⟨S1000000x1, .f32⟩
  | 80 => ⟨S_, .f32⟩
  | 81 => ⟨S1000000x1, .f32⟩
  | 82 => ⟨S1000000x1, .f32⟩
  | 83 => ⟨S1000000x64, .f32⟩
  | 84 => ⟨S1000000x64, .f32⟩
  | 85 => ⟨S1000000x64, .f32⟩
  | 86 => ⟨S_, .f32⟩
  | 87 => ⟨S1000000, .f32⟩
  | 88 => ⟨S1000000x1, .f32⟩
  | 89 => ⟨S_, .f32⟩
  | 90 => ⟨S1000000x1, .f32⟩
  | 91 => ⟨S1000000x1, .f32⟩
  | 92 => ⟨S1000000x64, .f32⟩
  | 93 => ⟨S1000000x64, .f32⟩
  | 94 => ⟨S_, .f32⟩
  | 95 => ⟨S1000000x1, .f32⟩
  | 96 => ⟨S1000000x1, .f32⟩
  | 97 => ⟨S1000000x1, .f32⟩
  | 98 => ⟨S1000000x64, .f32⟩
  | 99 => ⟨S1000000x64, .f32⟩
  | 100 => ⟨S1x64, .f32⟩
  | 101 => ⟨S1000000x64, .f32⟩
  | 102 => ⟨S1000000x64, .f32⟩
  | 103 => ⟨S1x64, .f32⟩
  | 104 => ⟨S1000000x64, .f32⟩
  | 105 => ⟨S1000000x64, .f32⟩
  | 106 => ⟨S1000000x64, .f32⟩
  | 107 => ⟨S1000000x64, .f32⟩
  | 108 => ⟨S1x64, .f32⟩
  | 109 => ⟨S1000000x64, .f32⟩
  | 110 => ⟨S1000000x64, .f32⟩
  | 111 => ⟨S_, .f32⟩
  | 112 => ⟨S1000000, .f32⟩
  | 113 => ⟨S1000000x1, .f32⟩
  | 114 => ⟨S_, .f32⟩
  | 115 => ⟨S1000000x1, .f32⟩
  | 116 => ⟨S1000000x1, .f32⟩
  | 117 => ⟨S1000000x64, .f32⟩
  | 118 => ⟨S1000000x64, .f32⟩
  | 119 => ⟨S1000000x64, .f32⟩
  | 120 => ⟨S_, .f32⟩
  | 121 => ⟨S1000000, .f32⟩
  | 122 => ⟨S1000000x1, .f32⟩
  | 123 => ⟨S_, .f32⟩
  | 124 => ⟨S1000000x1, .f32⟩
  | 125 => ⟨S1000000x1, .f32⟩
  | 126 => ⟨S1000000x64, .f32⟩
  | 127 => ⟨S1000000x64, .f32⟩
  | _ => ⟨S100000x64, .f32⟩

abbrev hbmTy0_1 (i : Nat) : BufTy := match i % 128 with
  | 0 => ⟨S_, .f32⟩
  | 1 => ⟨S1000000x1, .f32⟩
  | 2 => ⟨S1000000x1, .f32⟩
  | 3 => ⟨S1000000x1, .f32⟩
  | 4 => ⟨S1000000x64, .f32⟩
  | 5 => ⟨S1000000x64, .f32⟩
  | 6 => ⟨S1x64, .f32⟩
  | 7 => ⟨S1000000x64, .f32⟩
  | 8 => ⟨S1000000x64, .f32⟩
  | 9 => ⟨S1x64, .f32⟩
  | 10 => ⟨S1000000x64, .f32⟩
  | 11 => ⟨S1000000x64, .f32⟩
  | 12 => ⟨S1000000x64, .f32⟩
  | 13 => ⟨S1000000x1, .f32⟩
  | 14 => ⟨S1x1, .f32⟩
  | 15 => ⟨S1000000x1, .f32⟩
  | 16 => ⟨S1000000x1, .f32⟩
  | 17 => ⟨S1000000x1, .f32⟩
  | 18 => ⟨S1000000x1, .f32⟩
  | 19 => ⟨S_, .f32⟩
  | 20 => ⟨S1000000x1, .f32⟩
  | 21 => ⟨S1000000x1, .f32⟩
  | 22 => ⟨S_, .f32⟩
  | 23 => ⟨S1000000x1, .f32⟩
  | 24 => ⟨S1000000x1, .f32⟩
  | 25 => ⟨S1000000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_9 : Ref sig .tc := ⟨.hbm, 86, rfl⟩
abbrev main_v59 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_11 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_cst_13 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_14 : Ref sig .tc := ⟨.hbm, 120, rfl⟩
abbrev main_v88 : Ref sig .tc := ⟨.hbm, 121, rfl⟩
abbrev main_v89 : Ref sig .tc := ⟨.hbm, 122, rfl⟩
abbrev main_cst_15 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_16 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_17 : Ref sig .tc := ⟨.hbm, 147, rfl⟩
abbrev main_v112 : Ref sig .tc := ⟨.hbm, 148, rfl⟩
abbrev main_v113 : Ref sig .tc := ⟨.hbm, 149, rfl⟩
abbrev main_cst_18 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  shapeCasts_S1000000x1_S1000000 : S1000000x1.ShapeCasts S1000000
  gather_S100000x64_S1000000x1_S1000000x64_1_0_n_n_0_1_164_wf : GatherDims.WF S100000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x64_S1000000x64_1_0_0_1_n_n_wf : DotDims.WF S1000000x64 S64x64 S1000000x64 [1] [0] [0] [1] [] []
  dot_S1000000x64_S64x1_S1000000x1_1_0_0_1_n_n_wf : DotDims.WF S1000000x64 S64x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
/-
  The per-edge function both programs compute, over the extended reals.

  An edge's output depends on one row of each gathered node table (64 numbers each) and on the weights only. With
  `xs`, `xe` the two rows:

    h₁ = xs · W1[0:64] + xe · W1[64:128] + b1                     (the first dense layer, the concatenation split)
    a₁ = tanh (layerNorm h₁ · g1 + bt1),   h₂ = a₁ · W2 + b2
    a₂ = tanh (layerNorm h₂ · g2 + bt2),   h₃ = a₂ · W3 + b3
    a₃ = tanh (layerNorm h₃ · g3 + bt3),   out = logistic (a₃ · w4 + b4)

  where layerNorm h = (h − mean h) · rsqrt (mean ((h − mean h)²) + ε), the means being sums divided by the constant 64.
  Every operation is the exact one on the extended reals; sums are finite sums in the additive commutative monoid of
  the extended reals, so regrouping a sum needs no finiteness.

  The one law the comparison needs: a sum over 128 terms is the sum of its first 64 and its last 64 terms.
-/
import Idealize.ShloMosaic.PureOps.Ideal
import Mathlib.Algebra.BigOperators.Fin

noncomputable section

open scoped BigOperators

namespace Cert.Spec

open Idealize.ShloMosaic

/-- The row length 64 as the f32 constant both programs divide by. -/
def n64 : EReal := Ideal.ofBits .f32 0x42800000#32
/-- The variance offset, the f32 nearest to 1e-5, the same word in both programs. -/
def eps : EReal := Ideal.ofBits .f32 0x3727C5AC#32

/-- A row's mean: its sum divided by 64. -/
def mean (h : Fin 64 → EReal) : EReal := Ideal.div (∑ k, h k) n64
/-- A row less its mean. -/
def centred (h : Fin 64 → EReal) : Fin 64 → EReal := fun j => h j - mean h
/-- The mean of the squares of the centred row, plus ε. -/
def varEps (h : Fin 64 → EReal) : EReal := Ideal.div (∑ k, centred h k * centred h k) n64 + eps
/-- A centred row `d` scaled by the reciprocal root of `ve`, by the gain and shifted by the bias, through tanh. -/
def scaled (d : Fin 64 → EReal) (ve : EReal) (g b : Fin 64 → EReal) : Fin 64 → EReal :=
  fun j => Ideal.tanh (d j * Ideal.rsqrt ve * g j + b j)
/-- Layer normalisation with gain and bias, then tanh. -/
def normAct (h g b : Fin 64 → EReal) : Fin 64 → EReal := scaled (centred h) (varEps h) g b
/-- A dense layer on a row of 64: the row times a 64 × 64 matrix, plus the bias. -/
def dense (a : Fin 64 → EReal) (W : Fin 64 → Fin 64 → EReal) (b : Fin 64 → EReal) : Fin 64 → EReal :=
  fun j => (∑ k, a k * W k j) + b j
/-- The output unit: the row times a column of 64, plus the bias, through the logistic function. -/
def head (a w : Fin 64 → EReal) (b : EReal) : EReal := Ideal.logistic ((∑ k, a k * w k) + b)
/-- The first dense layer with the concatenation split: two rows of 64 against the two halves of the 128 × 64 matrix. -/
def first (xs xe : Fin 64 → EReal) (Wa Wb : Fin 64 → Fin 64 → EReal) (b : Fin 64 → EReal) : Fin 64 → EReal :=
  fun j => (∑ k, xs k * Wa k j + ∑ k, xe k * Wb k j) + b j
/-- Everything after the first dense layer, from its result `h1`. -/
def rest (h1 g1 bt1 : Fin 64 → EReal) (W2 : Fin 64 → Fin 64 → EReal) (b2 g2 bt2 : Fin 64 → EReal)
    (W3 : Fin 64 → Fin 64 → EReal) (b3 g3 bt3 w4 : Fin 64 → EReal) (b4 : EReal) : EReal :=
  head (normAct (dense (normAct (dense (normAct h1 g1 bt1) W2 b2) g2 bt2) W3 b3) g3 bt3) w4 b4

/-- A sum over 128 terms is the sum over its first 64 plus the sum over its last 64. -/
theorem sum_128_split {M : Type*} [AddCommMonoid M] (f : Fin 128 → M) :
    ∑ k : Fin 128, f k = ∑ k : Fin 64, f (Fin.castAdd 64 k) + ∑ k : Fin 64, f (Fin.natAdd 64 k) :=
  Fin.sum_univ_add (a := 64) (b := 64) f

end Cert.Spec

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.KernelBody.lean ====
/-
  The kernel body's stored value, row by row.

  At one grid point the body holds a block of 8000 edges: the two gathered blocks (8000 × 64 each) and the weights
  whole. It computes the four dense layers on the block, each matrix product into a zero accumulator, each layer
  normalisation by two row sums over the 64 columns, and stores one column of 8000 numbers. Changes of float format
  are the identity at the ideal values. Read at row `p` the stored value is the per-edge function of the
  specification of row `p` of the two blocks and the weights.
-/
import proofs.«152720_j59528246723026_1_alg».proof.Proof.Gen.KernelIdeal.Skeleton
import proofs.«152720_j59528246723026_1_alg».proof.Proof.Spec
import proofs.«152720_j59528246723026_1_alg».proof.Proof.LibDot
import Idealize.ShloMosaic.Lib.ValueIdx
import Idealize.ShloMosaic.Lib.Pipeline.Value
import Idealize.ShloMosaic.PureOps.Ideal.Laws

noncomputable section

open scoped BigOperators

namespace Cert.KernelBody

open Cert.KernelIdeal Cert.KernelIdeal.Gen
open Idealize.ShloMosaic Idealize.ShloMosaic.ValueIdx

/-! ## Layout operations of the block read at a row and a column -/

/-- A row sum kept as a column: at row `p` the sum of the 64 entries of row `p`. -/
theorem rowSum_apply (h : FVec Ideal S8000x64 .f32) (hr : S8000x64.Reduces [1] S8000) (hφ : FKind.Formats .f32)
    (hacc : (0x00000000#32 : BitVec 32) = FKind.add.neutral .f32 hφ) (hc : S8000.ShapeCasts S8000x1) (p : Fin 8000) :
    shapeCast S8000x1 (multiReduction (F := Ideal) .add [1] S8000 h 0x00000000#32 hr hφ hacc) hc (ix2 p (0 : Fin 1))
      = ∑ k : Fin 64, h (ix2 p k) := by
  refine (shapeCast_apply _ hc (ix2 p (0 : Fin 1)) (ix1 p) ?_).trans ?_
  · rw [Shape.rowMajor_val_two, Shape.rowMajor_val_one]
    show p.val = p.val * 1 + 0
    omega
  · refine (Ideal.multiReduction_add_single h _ hr hφ hacc (ix1 p)).trans ?_
    show ∑ k : Fin 64, h (hr.lift (ix1 p) k) = ∑ k : Fin 64, h (ix2 p k)
    refine Finset.sum_congr rfl fun k _ => congrArg h ?_
    funext a
    apply Fin.ext
    match a with
    | ⟨0, _⟩ => rfl
    | ⟨1, _⟩ => rfl

/-- A column broadcast along the rows: at `(p, j)` the column's entry at row `p`. -/
theorem colBroadcast_apply {α : Type} (v : S8000x1.Idx → α) (hb : S8000x1.Broadcasts S8000x64) (p : Fin 8000) (j : Fin 64) :
    broadcastTo S8000x64 v hb (ix2 p j) = v (ix2 p (0 : Fin 1)) := by
  refine broadcastTo_apply v hb (ix2 p j) (ix2 p (0 : Fin 1)) fun ax => ?_
  match ax with
  | ⟨0, _⟩ => rfl
  | ⟨1, _⟩ => rfl

/-- A row broadcast along the columns: at `(p, j)` the row's entry at column `j`. -/
theorem rowBroadcast_apply {α : Type} (v : S1x64.Idx → α) (hb : S1x64.Broadcasts S8000x64) (p : Fin 8000) (j : Fin 64) :
    broadcastTo S8000x64 v hb (ix2 p j) = v (ix2 (0 : Fin 1) j) := by
  refine broadcastTo_apply v hb (ix2 p j) (ix2 (0 : Fin 1) j) fun ax => ?_
  match ax with
  | ⟨0, _⟩ => rfl
  | ⟨1, _⟩ => rfl

/-- One number broadcast to a column: at every row that number. -/
theorem unitBroadcast_apply {α : Type} (v : S1x1.Idx → α) (hb : S1x1.Broadcasts S8000x1) (p : Fin 8000) :
    broadcastTo S8000x1 v hb (ix2 p (0 : Fin 1)) = v (ix2 (0 : Fin 1) (0 : Fin 1)) := by
  refine broadcastTo_apply v hb (ix2 p (0 : Fin 1)) (ix2 (0 : Fin 1) (0 : Fin 1)) fun ax => ?_
  match ax with
  | ⟨0, _⟩ => rfl
  | ⟨1, _⟩ => rfl

/-! ## The block's layers as functions of blocks -/

/-- The column of row means of a block: each row's sum over the constant 64. -/
def meanV (h : FVec Ideal S8000x64 .f32) : FVec Ideal S8000x1 .f32 :=
  divf (shapeCast S8000x1 (multiReduction .add [1] S8000 h 0x00000000#32 reduces_S8000x64_S8000 (.inl rfl) rfl)
      shapeCasts_S8000_S8000x1)
    (broadcast S8000x1 (Scalar.ofBits .f32 0x42800000#32))

/-- A block less its column of row means. -/
def centredV (h : FVec Ideal S8000x64 .f32) : FVec Ideal S8000x64 .f32 :=
  subf h (broadcastTo S8000x64 (meanV h) broadcasts_S8000x1_S8000x64)

/-- The column of the row means of the squares of a block, plus ε. -/
def varEpsV (d : FVec Ideal S8000x64 .f32) : FVec Ideal S8000x1 .f32 :=
  addf (divf (shapeCast S8000x1
        (multiReduction .add [1] S8000 (mulf d d) 0x00000000#32 reduces_S8000x64_S8000 (.inl rfl) rfl)
        shapeCasts_S8000_S8000x1)
      (broadcast S8000x1 (Scalar.ofBits .f32 0x42800000#32)))
    (broadcast S8000x1 (Scalar.ofBits .f32 0x3727C5AC#32))

/-- A block scaled by the reciprocal root of a column, by a gain row, shifted by a bias row, through tanh. -/
def scaledV (d : FVec Ideal S8000x64 .f32) (ve : FVec Ideal S8000x1 .f32) (g b : FVec Ideal S1x64 .f32) :
    FVec Ideal S8000x64 .f32 :=
  tanh (addf (mulf (mulf d (broadcastTo S8000x64 (rsqrt ve) broadcasts_S8000x1_S8000x64))
      (broadcastTo S8000x64 g broadcasts_S1x64_S8000x64)) (broadcastTo S8000x64 b broadcasts_S1x64_S8000x64))

/-- Layer normalisation of a block with gain and bias rows, then tanh. -/
def normActV (h : FVec Ideal S8000x64 .f32) (g b : FVec Ideal S1x64 .f32) : FVec Ideal S8000x64 .f32 :=
  scaledV (centredV h) (varEpsV (centredV h)) g b

/-- A dense layer on a block: the product with a 64 × 64 matrix into the zero accumulator, plus the bias row. -/
def denseV (a : FVec Ideal S8000x64 .bf16) (W : Vec Ideal S64x64 .f32) (b : Vec Ideal S1x64 .f32) :
    FVec Ideal S8000x64 .f32 :=
  addf (matmul dot_S8000x64_S64x64_S8000x64_1_0_0_1_n_n none a (truncf .bf16 W bitsLt_bf16_f32)
      (constant S8000x64 .f32 0x00000000#32))
    (broadcastTo S8000x64 (shapeCast S1x64 b shapeCasts_S1x64_S1x64) broadcasts_S1x64_S8000x64)

/-- The output unit on a block: the product with a 64 × 1 column into the zero accumulator, plus the bias, through the
    logistic function. -/
def headV (a : FVec Ideal S8000x64 .bf16) (w : Vec Ideal S64x1 .f32) (b : Vec Ideal S1x1 .f32) :
    FVec Ideal S8000x1 .f32 :=
  logistic (addf (matmul dot_S8000x64_S64x1_S8000x1_1_0_0_1_n_n none a (truncf .bf16 w bitsLt_bf16_f32)
      (constant S8000x1 .f32 0x00000000#32))
    (broadcastTo S8000x1 (shapeCast S1x1 b shapeCasts_S1x1_S1x1) broadcasts_S1x1_S8000x1))

theorem pay4_eq (v0 v3 : Vec Ideal S8000x64 .f32) (v6 v9 : Vec Ideal S64x64 .f32) (v15 : Vec Ideal S1x64 .f32) :
    k0_pay4 v0 v3 v6 v9 v15 = meanV (k0_pay1 v0 v3 v6 v9 v15) := rfl

theorem pay5_eq (v0 v3 : Vec Ideal S8000x64 .f32) (v6 v9 : Vec Ideal S64x64 .f32) (v15 : Vec Ideal S1x64 .f32) :
    k0_pay5 v0 v3 v6 v9 v15 = centredV (k0_pay1 v0 v3 v6 v9 v15) := rfl

theorem pay6_eq (v0 v3 : Vec Ideal S8000x64 .f32) (v6 v9 : Vec Ideal S64x64 .f32) (v15 : Vec Ideal S1x64 .f32) :
    k0_pay6 v0 v3 v6 v9 v15 = varEpsV (centredV (k0_pay1 v0 v3 v6 v9 v15)) := rfl

theorem pay7_eq (g1 bt1 : FVec Ideal S1x64 .f32) (d : FVec Ideal S8000x64 .f32) (ve : FVec Ideal S8000x1 .f32)
    (v47 : Vec Ideal S64x64 .f32) (v50 v54 v56 : Vec Ideal S1x64 .f32) :
    k0_pay7 g1 bt1 d ve v47 v50 v54 v56
      = truncf .bf16 (normActV (denseV (truncf .bf16 (scaledV d ve g1 bt1) bitsLt_bf16_f32) v47 v50)
          (shapeCast S1x64 v54 shapeCasts_S1x64_S1x64) (shapeCast S1x64 v56 shapeCasts_S1x64_S1x64)) bitsLt_bf16_f32 := rfl

theorem pay8_eq (a : FVec Ideal S8000x64 .bf16) (v82 : Vec Ideal S64x64 .f32) (v85 v89 v91 : Vec Ideal S1x64 .f32)
    (v117 : Vec Ideal S64x1 .f32) (v120 : Vec Ideal S1x1 .f32) :
    k0_pay8 a v82 v85 v89 v91 v117 v120
      = headV (truncf .bf16 (normActV (denseV a v82 v85)
          (shapeCast S1x64 v89 shapeCasts_S1x64_S1x64) (shapeCast S1x64 v91 shapeCasts_S1x64_S1x64)) bitsLt_bf16_f32)
          v117 v120 := rfl

/-! ## The layers read at a row -/

theorem meanV_apply (h : FVec Ideal S8000x64 .f32) (p : Fin 8000) :
    meanV h (ix2 p (0 : Fin 1)) = Spec.mean fun k => h (ix2 p k) :=
  congrArg (fun x => Ideal.div x Spec.n64) (rowSum_apply h _ _ _ _ p)

theorem centredV_apply (h : FVec Ideal S8000x64 .f32) (p : Fin 8000) (j : Fin 64) :
    centredV h (ix2 p j) = Spec.centred (fun k => h (ix2 p k)) j := by
  show h (ix2 p j) - broadcastTo S8000x64 (meanV h) broadcasts_S8000x1_S8000x64 (ix2 p j) = h (ix2 p j) - Spec.mean _
  rw [colBroadcast_apply, meanV_apply]

theorem varEpsV_apply (d : FVec Ideal S8000x64 .f32) (p : Fin 8000) :
    varEpsV d (ix2 p (0 : Fin 1)) = Ideal.div (∑ k : Fin 64, d (ix2 p k) * d (ix2 p k)) Spec.n64 + Spec.eps :=
  congrArg (fun x => Ideal.div x Spec.n64 + Spec.eps) (rowSum_apply (mulf d d) _ _ _ _ p)

theorem varEpsV_centredV_apply (h : FVec Ideal S8000x64 .f32) (p : Fin 8000) :
    varEpsV (centredV h) (ix2 p (0 : Fin 1)) = Spec.varEps fun k => h (ix2 p k) := by
  rw [varEpsV_apply]
  show _ = Ideal.div (∑ k, Spec.centred (fun k => h (ix2 p k)) k * Spec.centred (fun k => h (ix2 p k)) k) Spec.n64 + Spec.eps
  refine congrArg (fun x => Ideal.div x Spec.n64 + Spec.eps) (Finset.sum_congr rfl fun k _ => ?_)
  rw [centredV_apply]

theorem scaledV_apply (d : FVec Ideal S8000x64 .f32) (ve : FVec Ideal S8000x1 .f32) (g b : FVec Ideal S1x64 .f32)
    (p : Fin 8000) (j : Fin 64) :
    scaledV d ve g b (ix2 p j)
      = Spec.scaled (fun k => d (ix2 p k)) (ve (ix2 p (0 : Fin 1))) (fun j => g (ix2 (0 : Fin 1) j))
          (fun j => b (ix2 (0 : Fin 1) j)) j := by
  show Ideal.tanh (d (ix2 p j) * broadcastTo S8000x64 (rsqrt ve) broadcasts_S8000x1_S8000x64 (ix2 p j)
      * broadcastTo S8000x64 g broadcasts_S1x64_S8000x64 (ix2 p j)
      + broadcastTo S8000x64 b broadcasts_S1x64_S8000x64 (ix2 p j)) = _
  rw [colBroadcast_apply, rowBroadcast_apply, rowBroadcast_apply]
  rfl

theorem normActV_apply (h : FVec Ideal S8000x64 .f32) (g b : FVec Ideal S1x64 .f32) (p : Fin 8000) (j : Fin 64) :
    normActV h g b (ix2 p j)
      = Spec.normAct (fun k => h (ix2 p k)) (fun j => g (ix2 (0 : Fin 1) j)) (fun j => b (ix2 (0 : Fin 1) j)) j := by
  unfold normActV Spec.normAct
  rw [scaledV_apply, varEpsV_centredV_apply]
  exact congrArg (fun d => Spec.scaled d _ _ _ j) (funext fun k => centredV_apply h p k)

theorem denseV_apply (a : FVec Ideal S8000x64 .bf16) (W : Vec Ideal S64x64 .f32) (b : Vec Ideal S1x64 .f32)
    (p : Fin 8000) (j : Fin 64) :
    denseV a W b (ix2 p j)
      = Spec.dense (fun k => a (ix2 p k)) (fun k j => W (ix2 k j)) (fun j => b (ix2 (0 : Fin 1) j)) j := by
  show matmul (F := Ideal) dot_S8000x64_S64x64_S8000x64_1_0_0_1_n_n none a (truncf .bf16 W bitsLt_bf16_f32)
        (constant S8000x64 .f32 0x00000000#32) (ix2 p j)
      + broadcastTo S8000x64 (shapeCast S1x64 b shapeCasts_S1x64_S1x64) broadcasts_S1x64_S8000x64 (ix2 p j) = _
  rw [Cert.LibDot.matmul_10_zero_apply _ rfl rfl rfl rfl rfl rfl, rowBroadcast_apply, shapeCast_self]
  rfl

theorem headV_apply (a : FVec Ideal S8000x64 .bf16) (w : Vec Ideal S64x1 .f32) (b : Vec Ideal S1x1 .f32) (p : Fin 8000) :
    headV a w b (ix2 p (0 : Fin 1))
      = Spec.head (fun k => a (ix2 p k)) (fun k => w (ix2 k (0 : Fin 1))) (b (ix2 (0 : Fin 1) (0 : Fin 1))) := by
  show Ideal.logistic (matmul (F := Ideal) dot_S8000x64_S64x1_S8000x1_1_0_0_1_n_n none a (truncf .bf16 w bitsLt_bf16_f32)
        (constant S8000x1 .f32 0x00000000#32) (ix2 p (0 : Fin 1))
      + broadcastTo S8000x1 (shapeCast S1x1 b shapeCasts_S1x1_S1x1) broadcasts_S1x1_S8000x1 (ix2 p (0 : Fin 1))) = _
  rw [Cert.LibDot.matmul_10_zero_apply _ rfl rfl rfl rfl rfl rfl, unitBroadcast_apply, shapeCast_self]
  rfl

/-- The first dense layer's result at `(p, j)`. -/
theorem pay1_apply (v0 v3 : Vec Ideal S8000x64 .f32) (v6 v9 : Vec Ideal S64x64 .f32) (v15 : Vec Ideal S1x64 .f32)
    (p : Fin 8000) (j : Fin 64) :
    k0_pay1 v0 v3 v6 v9 v15 (ix2 p j)
      = Spec.first (fun k => v0 (ix2 p k)) (fun k => v3 (ix2 p k)) (fun k j => v6 (ix2 k j)) (fun k j => v9 (ix2 k j))
          (fun j => v15 (ix2 (0 : Fin 1) j)) j := by
  show matmul (F := Ideal) dot_S8000x64_S64x64_S8000x64_1_0_0_1_n_n none
        (truncf .bf16 (shapeCast S8000x64 v0 shapeCasts_S8000x64_S8000x64) bitsLt_bf16_f32)
        (truncf .bf16 (shapeCast S64x64 v6 shapeCasts_S64x64_S64x64) bitsLt_bf16_f32)
        (constant S8000x64 .f32 0x00000000#32) (ix2 p j)
      + matmul (F := Ideal) dot_S8000x64_S64x64_S8000x64_1_0_0_1_n_n none
        (truncf .bf16 (shapeCast S8000x64 v3 shapeCasts_S8000x64_S8000x64) bitsLt_bf16_f32)
        (truncf .bf16 (shapeCast S64x64 v9 shapeCasts_S64x64_S64x64) bitsLt_bf16_f32)
        (constant S8000x64 .f32 0x00000000#32) (ix2 p j)
      + broadcastTo S8000x64 (shapeCast S1x64 v15 shapeCasts_S1x64_S1x64) broadcasts_S1x64_S8000x64 (ix2 p j) = _
  rw [Cert.LibDot.matmul_10_zero_apply _ rfl rfl rfl rfl rfl rfl, Cert.LibDot.matmul_10_zero_apply _ rfl rfl rfl rfl rfl rfl,
    rowBroadcast_apply, shapeCast_self, shapeCast_self, shapeCast_self, shapeCast_self, shapeCast_self]
  rfl

/-! ## The payloads read at a row -/

theorem pay2_eq (v19 : Vec Ideal S1x64 .f32) : k0_pay2 v19 = v19 := shapeCast_self v19 _

theorem pay3_eq (v21 : Vec Ideal S1x64 .f32) : k0_pay3 v21 = v21 := shapeCast_self v21 _

/-- The centred first layer at `(p, j)`. -/
theorem pay5_apply (v0 v3 : Vec Ideal S8000x64 .f32) (v6 v9 : Vec Ideal S64x64 .f32) (v15 : Vec Ideal S1x64 .f32)
    (p : Fin 8000) (j : Fin 64) :
    k0_pay5 v0 v3 v6 v9 v15 (ix2 p j)
      = Spec.centred (Spec.first (fun k => v0 (ix2 p k)) (fun k => v3 (ix2 p k)) (fun k j => v6 (ix2 k j))
          (fun k j => v9 (ix2 k j)) (fun j => v15 (ix2 (0 : Fin 1) j))) j := by
  rw [pay5_eq, centredV_apply]
  exact congrArg (fun h => Spec.centred h j) (funext fun k => pay1_apply v0 v3 v6 v9 v15 p k)

/-- The first layer's variance plus ε at row `p`. -/
theorem pay6_apply (v0 v3 : Vec Ideal S8000x64 .f32) (v6 v9 : Vec Ideal S64x64 .f32) (v15 : Vec Ideal S1x64 .f32)
    (p : Fin 8000) :
    k0_pay6 v0 v3 v6 v9 v15 (ix2 p (0 : Fin 1))
      = Spec.varEps (Spec.first (fun k => v0 (ix2 p k)) (fun k => v3 (ix2 p k)) (fun k j => v6 (ix2 k j))
          (fun k j => v9 (ix2 k j)) (fun j => v15 (ix2 (0 : Fin 1) j))) := by
  rw [pay6_eq, varEpsV_centredV_apply]
  exact congrArg Spec.varEps (funext fun k => pay1_apply v0 v3 v6 v9 v15 p k)

/-- The second layer's activation at `(p, j)`, from the first layer's centred block and variance column. -/
theorem pay7_apply (g1 bt1 : FVec Ideal S1x64 .f32) (d : FVec Ideal S8000x64 .f32) (ve : FVec Ideal S8000x1 .f32)
    (v47 : Vec Ideal S64x64 .f32) (v50 v54 v56 : Vec Ideal S1x64 .f32) (p : Fin 8000) (j : Fin 64) :
    k0_pay7 g1 bt1 d ve v47 v50 v54 v56 (ix2 p j)
      = Spec.normAct
          (Spec.dense
            (Spec.scaled (fun k => d (ix2 p k)) (ve (ix2 p (0 : Fin 1))) (fun j => g1 (ix2 (0 : Fin 1) j))
              (fun j => bt1 (ix2 (0 : Fin 1) j)))
            (fun k j => v47 (ix2 k j)) (fun j => v50 (ix2 (0 : Fin 1) j)))
          (fun j => v54 (ix2 (0 : Fin 1) j)) (fun j => v56 (ix2 (0 : Fin 1) j)) j := by
  rw [pay7_eq]
  show normActV _ _ _ (ix2 p j) = _
  rw [normActV_apply, shapeCast_self, shapeCast_self]
  refine congrArg (fun h => Spec.normAct h _ _ j) (funext fun k => ?_)
  rw [denseV_apply]
  refine congrArg (fun a => Spec.dense a _ _ k) (funext fun k' => ?_)
  exact scaledV_apply d ve g1 bt1 p k'

/-- The stored value at row `p`, from the second layer's activation. -/
theorem pay8_apply (a : FVec Ideal S8000x64 .bf16) (v82 : Vec Ideal S64x64 .f32) (v85 v89 v91 : Vec Ideal S1x64 .f32)
    (v117 : Vec Ideal S64x1 .f32) (v120 : Vec Ideal S1x1 .f32) (p : Fin 8000) :
    k0_pay8 a v82 v85 v89 v91 v117 v120 (ix2 p (0 : Fin 1))
      = Spec.head
          (Spec.normAct
            (Spec.dense (fun k => a (ix2 p k)) (fun k j => v82 (ix2 k j)) (fun j => v85 (ix2 (0 : Fin 1) j)))
            (fun j => v89 (ix2 (0 : Fin 1) j)) (fun j => v91 (ix2 (0 : Fin 1) j)))
          (fun k => v117 (ix2 k (0 : Fin 1))) (v120 (ix2 (0 : Fin 1) (0 : Fin 1))) := by
  rw [pay8_eq, headV_apply]
  refine congrArg (fun x => Spec.head x _ _) (funext fun j => ?_)
  show normActV _ _ _ (ix2 p j) = _
  rw [normActV_apply, shapeCast_self, shapeCast_self]
  refine congrArg (fun h => Spec.normAct h _ _ j) (funext fun k => ?_)
  exact denseV_apply a v82 v85 p k

/-- The value the body stores, at row `p` of the block, is the per-edge function of row `p` of the two gathered
    blocks and the weights. -/
theorem body_apply (v0 v3 : Vec Ideal S8000x64 .f32) (v6 v9 : Vec Ideal S64x64 .f32) (v15 v19 v21 : Vec Ideal S1x64 .f32)
    (v47 : Vec Ideal S64x64 .f32) (v50 v54 v56 : Vec Ideal S1x64 .f32)
    (v82 : Vec Ideal S64x64 .f32) (v85 v89 v91 : Vec Ideal S1x64 .f32)
    (v117 : Vec Ideal S64x1 .f32) (v120 : Vec Ideal S1x1 .f32) (p : Fin 8000) :
    k0_pay8 (k0_pay7 (k0_pay2 v19) (k0_pay3 v21) (k0_pay5 v0 v3 v6 v9 v15) (k0_pay6 v0 v3 v6 v9 v15) v47 v50 v54 v56)
        v82 v85 v89 v91 v117 v120 (ix2 p (0 : Fin 1))
      = Spec.rest
          (Spec.first (fun k => v0 (ix2 p k)) (fun k => v3 (ix2 p k)) (fun k j => v6 (ix2 k j)) (fun k j => v9 (ix2 k j))
            (fun j => v15 (ix2 (0 : Fin 1) j)))
          (fun j => v19 (ix2 (0 : Fin 1) j)) (fun j => v21 (ix2 (0 : Fin 1) j))
          (fun k j => v47 (ix2 k j)) (fun j => v50 (ix2 (0 : Fin 1) j)) (fun j => v54 (ix2 (0 : Fin 1) j))
          (fun j => v56 (ix2 (0 : Fin 1) j))
          (fun k j => v82 (ix2 k j)) (fun j => v85 (ix2 (0 : Fin 1) j)) (fun j => v89 (ix2 (0 : Fin 1) j))
          (fun j => v91 (ix2 (0 : Fin 1) j))
          (fun k => v117 (ix2 k (0 : Fin 1))) (v120 (ix2 (0 : Fin 1) (0 : Fin 1))) := by
  rw [pay8_apply]
  unfold Spec.rest
  refine congrArg (fun a => Spec.head (Spec.normAct (Spec.dense a _ _) _ _) _ _) (funext fun k => ?_)
  rw [pay7_apply, pay6_apply, pay2_eq, pay3_eq]
  refine congrArg (fun d => Spec.normAct (Spec.dense (Spec.scaled d _ _ _) _ _) _ _ k) (funext fun k' => ?_)
  exact pay5_apply v0 v3 v6 v9 v15 p k'

end Cert.KernelBody

end
-- ==== Proof.KernelArray.lean ====
/-
  From the kernel's blocks to the program's result.

  The grid has 125 points. At point `t` the two gathered inputs' blocks are rows 8000 t … 8000 t + 7999 of their
  arrays, every weight's one block is its whole array, and the body's one store covers the output's buffer; so what
  point `t` writes back is rows 8000 t … 8000 t + 7999 of ONE column of 1000000 numbers, whose entry i is the
  specification's per-edge function of row i of the two gathered arrays and of the weights. Row r lies in block
  r / 8000, so the blocks cover the column, and the array ends holding it. After the region the host reshapes the
  column to a vector of 1000000: entry i of the result is edge i's output. The arguments end unchanged: those the
  region stages are inputs, and the host operations write only their own results.
-/
import proofs.«152720_j59528246723026_1_alg».proof.Proof.Gen.KernelIdeal.Frame
import proofs.«152720_j59528246723026_1_alg».proof.Proof.KernelBody
import Idealize.ShloMosaic.Lib.Pipeline.Value
import Idealize.ShloMosaic.Lib.StableHlo.Run
import Idealize.ShloMosaic.Lib.Tactic

noncomputable section

open scoped BigOperators

namespace Cert.KernelArray

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output's buffer is the stored value itself: one store covering the buffer. -/
theorem stored_eq (x0 x1 : Vec Ideal S8000x64 .f32) (x2 x3 : Vec Ideal S64x64 .f32) (x4 x5 x6 : Vec Ideal S1x64 .f32)
    (x7 : Vec Ideal S64x64 .f32) (x8 x9 x10 : Vec Ideal S1x64 .f32) (x11 : Vec Ideal S64x64 .f32)
    (x12 x13 x14 : Vec Ideal S1x64 .f32) (x15 : Vec Ideal S64x1 .f32) (x16 : Vec Ideal S1x1 .f32) :
    out0_17 x0 x1 x2 x3 x4 x5 x6 x7 x8 x9 x10 x11 x12 x13 x14 x15 x16
      = k0_pay8 (k0_pay7 (k0_pay2 x5) (k0_pay3 x6) (k0_pay5 x0 x1 x2 x3 x4) (k0_pay6 x0 x1 x2 x3 x4) x7 x8 x9 x10)
          x11 x12 x13 x14 x15 x16 := by
  unfold out0_17
  rw [View.canon_unit_zero hz]
  simp only [View.ld_unit_zero (S := S8000x64) hz, View.ld_unit_zero (S := S64x64) hz, View.ld_unit_zero (S := S1x64) hz,
    View.ld_unit_zero (S := S64x1) hz, View.ld_unit_zero (S := S1x1) hz]

/-- The grid has 125 points. -/
theorem N_eq : cfg0.N = 125 := N_0

/-- The printed index maps of the two gathered inputs and of the output, over the grid: block `t` of 8000 rows at
    point `t`, the one block of columns. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0 :=
  (by decide +kernel : ∀ t : Fin grid0.N, _)

/-- The printed index maps of the weights, over the grid: always block (0, 0). -/
theorem idx_whole : ∀ t : Fin cfg0.N,
    (∀ a : Fin 2, win0_2.index t a = 0)
    ∧ (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0)
    ∧ (∀ a : Fin 2, win0_14.index t a = 0)
    ∧ (∀ a : Fin 2, win0_15.index t a = 0)
    ∧ (∀ a : Fin 2, win0_16.index t a = 0) :=
  (by decide +kernel : ∀ t : Fin grid0.N, _)

/-- Row `p` of block `t` is row `8000 t + p` of the array. -/
def rowOf (t : Fin cfg0.N) (p : Fin 8000) : Fin 1000000 :=
  ⟨t.val * 8000 + p.val, by have h : t.val < 125 := lt_of_lt_of_eq t.isLt N_eq; have := p.isLt; omega⟩

/-- The start rows' block at point `t`, entry (p, k), is the gathered array's entry (8000 t + p, k). -/
theorem iblk_0_apply (c : Dev nD) (t : Fin cfg0.N) (p : Fin 8000) (k : Fin 64) :
    (iblk m c 0 t : Vec Ideal S8000x64 .f32) (ix2 p k) = (V m c main_v10 : Vec Ideal S1000000x64 .f32) (ix2 (rowOf t p) k) := by
  obtain ⟨e0, e1, -⟩ := idx_rows t
  unfold iblk
  rw [View.read_apply]
  show V m c main_v10 _ = V m c main_v10 _
  refine congrArg (V m c main_v10) (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 64 + 1 * k.val = k.val; rw [e1]; omega

/-- The end rows' block, likewise. -/
theorem iblk_1_apply (c : Dev nD) (t : Fin cfg0.N) (p : Fin 8000) (k : Fin 64) :
    (iblk m c 1 t : Vec Ideal S8000x64 .f32) (ix2 p k) = (V m c main_v17 : Vec Ideal S1000000x64 .f32) (ix2 (rowOf t p) k) := by
  obtain ⟨-, -, e0, e1, -⟩ := idx_rows t
  unfold iblk
  rw [View.read_apply]
  show V m c main_v17 _ = V m c main_v17 _
  refine congrArg (V m c main_v17) (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 64 + 1 * k.val = k.val; rw [e1]; omega

/-- Window 2's one block is its whole array. -/
theorem iblk_2 (c : Dev nD) (t : Fin cfg0.N) : (iblk m c 2 t : Vec Ideal S64x64 .f32) = V m c main_v18 := by
  have hz' : (fun a => win0_2.index t a * main_v18.ty.shape.size a) = fun _ => 0 :=
    funext fun a => by rw [(idx_whole t).1 a, Nat.zero_mul]
  exact Memref.read_access_unit_zero (Elt Ideal) main_v18 hz' (fun a => by rw [congrFun hz' a]; simp) (V m c main_v18)

/-- Window 3's one block is its whole array. -/
theorem iblk_3 (c : Dev nD) (t : Fin cfg0.N) : (iblk m c 3 t : Vec Ideal S64x64 .f32) = V m c main_v19 := by
  have hz' : (fun a => win0_3.index t a * main_v19.ty.shape.size a) = fun _ => 0 :=
    funext fun a => by rw [(idx_whole t).2.1 a, Nat.zero_mul]
  exact Memref.read_access_unit_zero (Elt Ideal) main_v19 hz' (fun a => by rw [congrFun hz' a]; simp) (V m c main_v19)

/-- Window 4's one block is its whole array. -/
theorem iblk_4 (c : Dev nD) (t : Fin cfg0.N) : (iblk m c 4 t : Vec Ideal S1x64 .f32) = V m c main_v20 := by
  have hz' : (fun a => win0_4.index t a * main_v20.ty.shape.size a) = fun _ => 0 :=
    funext fun a => by rw [(idx_whole t).2.2.1 a, Nat.zero_mul]
  exact Memref.read_access_unit_zero (Elt Ideal) main_v20 hz' (fun a => by rw [congrFun hz' a]; simp) (V m c main_v20)

/-- Window 5's one block is its whole array. -/
theorem iblk_5 (c : Dev nD) (t : Fin cfg0.N) : (iblk m c 5 t : Vec Ideal S1x64 .f32) = V m c main_v21 := by
  have hz' : (fun a => win0_5.index t a * main_v21.ty.shape.size a) = fun _ => 0 :=
    funext fun a => by rw [(idx_whole t).2.2.2.1 a, Nat.zero_mul]
  exact Memref.read_access_unit_zero (Elt Ideal) main_v21 hz' (fun a => by rw [congrFun hz' a]; simp) (V m c main_v21)

/-- Window 6's one block is its whole array. -/
theorem iblk_6 (c : Dev nD) (t : Fin cfg0.N) : (iblk m c 6 t : Vec Ideal S1x64 .f32) = V m c main_v22 := by
  have hz' : (fun a => win0_6.index t a * main_v22.ty.shape.size a) = fun _ => 0 :=
    funext fun a => by rw [(idx_whole t).2.2.2.2.1 a, Nat.zero_mul]
  exact Memref.read_access_unit_zero (Elt Ideal) main_v22 hz' (fun a => by rw [congrFun hz' a]; simp) (V m c main_v22)

/-- Window 7's one block is its whole array. -/
theorem iblk_7 (c : Dev nD) (t : Fin cfg0.N) : (iblk m c 7 t : Vec Ideal S64x64 .f32) = V m c main_arg6 := by
  have hz' : (fun a => win0_7.index t a * main_arg6.ty.shape.size a) = fun _ => 0 :=
    funext fun a => by rw [(idx_whole t).2.2.2.2.2.1 a, Nat.zero_mul]
  exact Memref.read_access_unit_zero (Elt Ideal) main_arg6 hz' (fun a => by rw [congrFun hz' a]; simp) (V m c main_arg6)

/-- Window 8's one block is its whole array. -/
theorem iblk_8 (c : Dev nD) (t : Fin cfg0.N) : (iblk m c 8 t : Vec Ideal S1x64 .f32) = V m c main_v23 := by
  have hz' : (fun a => win0_8.index t a * main_v23.ty.shape.size a) = fun _ => 0 :=
    funext fun a => by rw [(idx_whole t).2.2.2.2.2.2.1 a, Nat.zero_mul]
  exact Memref.read_access_unit_zero (Elt Ideal) main_v23 hz' (fun a => by rw [congrFun hz' a]; simp) (V m c main_v23)

/-- Window 9's one block is its whole array. -/
theorem iblk_9 (c : Dev nD) (t : Fin cfg0.N) : (iblk m c 9 t : Vec Ideal S1x64 .f32) = V m c main_v24 := by
  have hz' : (fun a => win0_9.index t a * main_v24.ty.shape.size a) = fun _ => 0 :=
    funext fun a => by rw [(idx_whole t).2.2.2.2.2.2.2.1 a, Nat.zero_mul]
  exact Memref.read_access_unit_zero (Elt Ideal) main_v24 hz' (fun a => by rw [congrFun hz' a]; simp) (V m c main_v24)

/-- Window 10's one block is its whole array. -/
theorem iblk_10 (c : Dev nD) (t : Fin cfg0.N) : (iblk m c 10 t : Vec Ideal S1x64 .f32) = V m c main_v25 := by
  have hz' : (fun a => win0_10.index t a * main_v25.ty.shape.size a) = fun _ => 0 :=
    funext fun a => by rw [(idx_whole t).2.2.2.2.2.2.2.2.1 a, Nat.zero_mul]
  exact Memref.read_access_unit_zero (Elt Ideal) main_v25 hz' (fun a => by rw [congrFun hz' a]; simp) (V m c main_v25)

/-- Window 11's one block is its whole array. -/
theorem iblk_11 (c : Dev nD) (t : Fin cfg0.N) : (iblk m c 11 t : Vec Ideal S64x64 .f32) = V m c main_arg10 := by
  have hz' : (fun a => win0_11.index t a * main_arg10.ty.shape.size a) = fun _ => 0 :=
    funext fun a => by rw [(idx_whole t).2.2.2.2.2.2.2.2.2.1 a, Nat.zero_mul]
  exact Memref.read_access_unit_zero (Elt Ideal) main_arg10 hz' (fun a => by rw [congrFun hz' a]; simp) (V m c main_arg10)

/-- Window 12's one block is its whole array. -/
theorem iblk_12 (c : Dev nD) (t : Fin cfg0.N) : (iblk m c 12 t : Vec Ideal S1x64 .f32) = V m c main_v26 := by
  have hz' : (fun a => win0_12.index t a * main_v26.ty.shape.size a) = fun _ => 0 :=
    funext fun a => by rw [(idx_whole t).2.2.2.2.2.2.2.2.2.2.1 a, Nat.zero_mul]
  exact Memref.read_access_unit_zero (Elt Ideal) main_v26 hz' (fun a => by rw [congrFun hz' a]; simp) (V m c main_v26)

/-- Window 13's one block is its whole array. -/
theorem iblk_13 (c : Dev nD) (t : Fin cfg0.N) : (iblk m c 13 t : Vec Ideal S1x64 .f32) = V m c main_v27 := by
  have hz' : (fun a => win0_13.index t a * main_v27.ty.shape.size a) = fun _ => 0 :=
    funext fun a => by rw [(idx_whole t).2.2.2.2.2.2.2.2.2.2.2.1 a, Nat.zero_mul]
  exact Memref.read_access_unit_zero (Elt Ideal) main_v27 hz' (fun a => by rw [congrFun hz' a]; simp) (V m c main_v27)

/-- Window 14's one block is its whole array. -/
theorem iblk_14 (c : Dev nD) (t : Fin cfg0.N) : (iblk m c 14 t : Vec Ideal S1x64 .f32) = V m c main_v28 := by
  have hz' : (fun a => win0_14.index t a * main_v28.ty.shape.size a) = fun _ => 0 :=
    funext fun a => by rw [(idx_whole t).2.2.2.2.2.2.2.2.2.2.2.2.1 a, Nat.zero_mul]
  exact Memref.read_access_unit_zero (Elt Ideal) main_v28 hz' (fun a => by rw [congrFun hz' a]; simp) (V m c main_v28)

/-- Window 15's one block is its whole array. -/
theorem iblk_15 (c : Dev nD) (t : Fin cfg0.N) : (iblk m c 15 t : Vec Ideal S64x1 .f32) = V m c main_arg14 := by
  have hz' : (fun a => win0_15.index t a * main_arg14.ty.shape.size a) = fun _ => 0 :=
    funext fun a => by rw [(idx_whole t).2.2.2.2.2.2.2.2.2.2.2.2.2.1 a, Nat.zero_mul]
  exact Memref.read_access_unit_zero (Elt Ideal) main_arg14 hz' (fun a => by rw [congrFun hz' a]; simp) (V m c main_arg14)

/-- Window 16's one block is its whole array. -/
theorem iblk_16 (c : Dev nD) (t : Fin cfg0.N) : (iblk m c 16 t : Vec Ideal S1x1 .f32) = V m c main_v29 := by
  have hz' : (fun a => win0_16.index t a * main_v29.ty.shape.size a) = fun _ => 0 :=
    funext fun a => by rw [(idx_whole t).2.2.2.2.2.2.2.2.2.2.2.2.2.2 a, Nat.zero_mul]
  exact Memref.read_access_unit_zero (Elt Ideal) main_v29 hz' (fun a => by rw [congrFun hz' a]; simp) (V m c main_v29)

/-- The output of edge `i`: the per-edge function of row `i` of the two gathered arrays and of the weight arrays, as
    the region finds them. -/
def edgeOut (c : Dev nD) (i : Fin 1000000) : EReal :=
  Spec.rest
    (Spec.first (fun k => (V m c main_v10 : Vec Ideal S1000000x64 .f32) (ix2 i k)) (fun k => (V m c main_v17 : Vec Ideal S1000000x64 .f32) (ix2 i k))
      (fun k j => (V m c main_v18 : Vec Ideal S64x64 .f32) (ix2 k j)) (fun k j => (V m c main_v19 : Vec Ideal S64x64 .f32) (ix2 k j)) (fun j => (V m c main_v20 : Vec Ideal S1x64 .f32) (ix2 (0 : Fin 1) j)))
    (fun j => (V m c main_v21 : Vec Ideal S1x64 .f32) (ix2 (0 : Fin 1) j)) (fun j => (V m c main_v22 : Vec Ideal S1x64 .f32) (ix2 (0 : Fin 1) j))
    (fun k j => (V m c main_arg6 : Vec Ideal S64x64 .f32) (ix2 k j)) (fun j => (V m c main_v23 : Vec Ideal S1x64 .f32) (ix2 (0 : Fin 1) j)) (fun j => (V m c main_v24 : Vec Ideal S1x64 .f32) (ix2 (0 : Fin 1) j)) (fun j => (V m c main_v25 : Vec Ideal S1x64 .f32) (ix2 (0 : Fin 1) j))
    (fun k j => (V m c main_arg10 : Vec Ideal S64x64 .f32) (ix2 k j)) (fun j => (V m c main_v26 : Vec Ideal S1x64 .f32) (ix2 (0 : Fin 1) j)) (fun j => (V m c main_v27 : Vec Ideal S1x64 .f32) (ix2 (0 : Fin 1) j)) (fun j => (V m c main_v28 : Vec Ideal S1x64 .f32) (ix2 (0 : Fin 1) j))
    (fun k => (V m c main_arg14 : Vec Ideal S64x1 .f32) (ix2 k (0 : Fin 1))) ((V m c main_v29 : Vec Ideal S1x1 .f32) (ix2 (0 : Fin 1) (0 : Fin 1)))

/-- The output array, one column: entry (i, 0) is edge `i`'s output. -/
def outArr (c : Dev nD) : Vec Ideal S1000000x1 .f32 := fun y => edgeOut m c (y 0)

/-- A block of 8000 outputs whose row `p` is entry `8000 t + p` of an array is block `t` of that array. -/
theorem cut_eq_read (t : Fin cfg0.N) (X : Vec Ideal S8000x1 .f32) (G : Vec Ideal S1000000x1 .f32)
    (h : ∀ p : Fin 8000, X (ix2 p (0 : Fin 1)) = G (ix2 (rowOf t p) (0 : Fin 1))) :
    (cfg0.win 17).cut (grid0.coords t) X = ((cfg0.win 17).blk t).view.read (Elt Ideal) G := by
  obtain ⟨-, -, -, -, e0, e1⟩ := idx_rows t
  have key : ∀ y : S8000x1.Idx, X y = G (((cfg0.win 17).blk t).view.emb y) := by
    intro y
    obtain ⟨p, q, rfl⟩ : ∃ (p : Fin 8000) (q : Fin 1), y = ix2 p q := ⟨y 0, y 1, eq_ix2 y⟩
    obtain rfl : q = 0 := Subsingleton.elim _ _
    rw [h p]
    refine congrArg G (funext fun a => Fin.ext ?_)
    match a with
    | ⟨0, _⟩ => show t.val * 8000 + p.val = win0_17.index t (0 : Fin 2) * 8000 + 1 * p.val; rw [e0]; omega
    | ⟨1, _⟩ => show 0 = win0_17.index t (1 : Fin 2) * 1 + 1 * 0; rw [e1]
  exact funext key

/-- WHAT POINT `t` WRITES BACK is block `t` of the output array. -/
theorem flushed_eq (c : Dev nD) (t : Fin cfg0.N) :
    (dats m 0 c).flushed 17 t = ((cfg0.win 17).blk t).view.read (Elt Ideal) (outArr m c) := by
  show (cfg0.win 17).cut (grid0.coords t) ((dats m 0 c).after 17 t) = _
  rw [after0_17, stored_eq, iblk_2, iblk_3, iblk_4, iblk_5, iblk_6, iblk_7, iblk_8, iblk_9, iblk_10, iblk_11, iblk_12, iblk_13, iblk_14, iblk_15, iblk_16]
  refine cut_eq_read t _ _ fun p => ?_
  rw [KernelBody.body_apply]
  show _ = edgeOut m c (rowOf t p)
  unfold edgeOut
  simp only [iblk_0_apply, iblk_1_apply]

/-- Every row of the output array is in some point's block: row `r` in block `r / 8000`. -/
theorem final (c : Dev nD) : (dats m 0 c).arrAt 17 cfg0.N = outArr m c :=
  (dats m 0 c).arrAt_eq_of_cover 17 (outArr m c) (fun t _ => flushed_eq m c t) fun i => by
    have hi0 : (i 0).val < 1000000 := (i 0).isLt
    have hi1 : (i 1).val < 1 := (i 1).isLt
    have ht : (i 0).val / 8000 < cfg0.N := by rw [N_eq]; omega
    obtain ⟨-, -, -, -, e0, e1⟩ := idx_rows ⟨(i 0).val / 8000, ht⟩
    refine ⟨⟨(i 0).val / 8000, ht⟩, flush0_17 _, ?_⟩
    show i ∈ ((View.whole main_v30).slice (win0_17.rect ⟨(i 0).val / 8000, ht⟩)).set
    rw [View.set_slice_whole, Rect.mem_set_unit]
    intro a
    match a with
    | ⟨0, _⟩ =>
      show win0_17.index ⟨(i 0).val / 8000, ht⟩ (0 : Fin 2) * 8000 ≤ (i 0).val
        ∧ (i 0).val < win0_17.index ⟨(i 0).val / 8000, ht⟩ (0 : Fin 2) * 8000 + 8000
      rw [e0]; show (i 0).val / 8000 * 8000 ≤ (i 0).val ∧ (i 0).val < (i 0).val / 8000 * 8000 + 8000; omega
    | ⟨1, _⟩ =>
      show win0_17.index ⟨(i 0).val / 8000, ht⟩ (1 : Fin 2) * 1 ≤ (i 1).val
        ∧ (i 1).val < win0_17.index ⟨(i 0).val / 8000, ht⟩ (1 : Fin 2) * 1 + 1
      rw [e1]; omega

/-- The program's result: the output column read as a vector of 1000000. -/
def result (c : Dev nD) : Vec Ideal S1000000 .f32 :=
  shapeCast S1000000 (outArr m c) shapeCasts_S1000000x1_S1000000

/-- After the region the one host operation reshapes the output column, as the region left it, to the result. -/
theorem tail_eq (c : Dev nD) :
    Pipeline.afterTail₀ cfgs (dats m) 0 (V0 m) [hostOps1] c main_v31 = result m c := by
  have e := (Pipeline.withArrays_arr spec0 launch0.win.arr_inj c (V0 m c) (fun w => (dats m 0 c).arrAt w cfg0.N) 17).trans
    (final m c)
  unfold Pipeline.afterTail₀
  show StableHlo.after hostOps1 _ (Proc.devRef .tc main_v31) = _
  after_results
  unfold result
  rw [← e]
  rfl

/-- The result at edge `i` is that edge's output. -/
theorem result_apply (c : Dev nD) (i : Fin 1000000) : result m c (ix1 i) = edgeOut m c i := by
  unfold result
  refine (shapeCast_apply (outArr m c) shapeCasts_S1000000x1_S1000000 (ix1 i) (ix2 i (0 : Fin 1)) ?_).trans rfl
  rw [Shape.rowMajor_val_two, Shape.rowMajor_val_one]
  show i.val * 1 + 0 = i.val
  omega

/-- The run, read: every weakly fair execution terminates with the result buffer at `result` and the arguments
    unchanged. -/
theorem run : θ_run defs (onTc (τ := τ) (main (F := Ideal))) ⟨m, fun _ => 0, ρ⟩ fun r => ∀ c : Dev nD,
      r.2.mem ((c.tc : Thread nD τ).loc main_v31) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨((h c).2 main_v31 (Pipeline.mem_restRefs_of main_v31 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 7).trans (((dats m 0 c).arrAt_in 7 rfl _).trans ((A_eq m c 7).trans (V_main_arg6 m c))),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 11).trans (((dats m 0 c).arrAt_in 11 rfl _).trans ((A_eq m c 11).trans (V_main_arg10 m c))),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      ((h c).1 15).trans (((dats m 0 c).arrAt_in 15 rfl _).trans ((A_eq m c 15).trans (V_main_arg14 m c))),
      (((h c).2 main_arg15 (Pipeline.mem_restRefs_of main_arg15 (by decide) (by decide))).trans (W_main_arg15 m (dats m) c))⟩)
    (run_main m ρ)

end Cert.KernelArray

end
-- ==== Proof.KernelArgs.lean ====
/-
  The arrays the region finds, in terms of the program's arguments.

  Before the region the host program wraps negative node indices, gathers the rows of the node table at the edges'
  start nodes and at their end nodes, cuts the 128 × 64 first weight into its upper and lower 64 rows, and reshapes
  each bias and gain vector of 64 to one row (and the last bias to a 1 × 1 matrix). Read at an index, a row vector's
  entry (0, j) is the vector's entry j, and the two halves of the weight read rows k and 64 + k of it.
-/
import proofs.«152720_j59528246723026_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

namespace Cert.KernelArgs

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The edges' start nodes: row 0 of the edge list as a vector of 1000000 node indices. -/
def startIdx (c : Dev nD) : IVec S1000000 32 :=
  shapeCast S1000000 (extractStridedSlice S1x1000000 ![0, 0] (m ((c.tc : Thread nD τ).loc main_arg1) : IVec S2x1000000 32) slices_S2x1000000_S1x1000000_0_0) shapeCasts_S1x1000000_S1000000

/-- The edges' end nodes: row 1 of the edge list. -/
def endIdx (c : Dev nD) : IVec S1000000 32 :=
  shapeCast S1000000 (extractStridedSlice S1x1000000 ![1, 0] (m ((c.tc : Thread nD τ).loc main_arg1) : IVec S2x1000000 32) slices_S2x1000000_S1x1000000_1_0) shapeCasts_S1x1000000_S1000000

/-- The node table's rows at the start nodes (negative indices wrapped by the table's length, then the host's gather). -/
def rowsS (c : Dev nD) : Vec Ideal S1000000x64 .f32 :=
  Host.gather gather_S100000x64_S1000000x1_S1000000x64_1_0_n_n_0_1_164 (m ((c.tc : Thread nD τ).loc main_arg0) : Vec Ideal S100000x64 .f32)
        (broadcastInDim S1000000x1 ![0] bcast_S1000000_S1000000x1_0
          (select (cmpi .slt (startIdx m c) (broadcastInDim S1000000 ![] bcast_S_S1000000 (constantI S_ 32 0#32)))
            (addi (startIdx m c) (broadcastInDim S1000000 ![] bcast_S_S1000000 (constantI S_ 32 100000#32)))
            (startIdx m c)))

/-- The node table's rows at the end nodes. -/
def rowsE (c : Dev nD) : Vec Ideal S1000000x64 .f32 :=
  Host.gather gather_S100000x64_S1000000x1_S1000000x64_1_0_n_n_0_1_164 (m ((c.tc : Thread nD τ).loc main_arg0) : Vec Ideal S100000x64 .f32)
        (broadcastInDim S1000000x1 ![0] bcast_S1000000_S1000000x1_0
          (select (cmpi .slt (endIdx m c) (broadcastInDim S1000000 ![] bcast_S_S1000000 (constantI S_ 32 0#32)))
            (addi (endIdx m c) (broadcastInDim S1000000 ![] bcast_S_S1000000 (constantI S_ 32 100000#32)))
            (endIdx m c)))

/-- The region finds the start rows gathered. -/
theorem v10_eq (c : Dev nD) : V m c main_v10 = rowsS m c := by
  show StableHlo.after hostOps0 (fun b => m (c, b)) (Proc.devRef .tc main_v10) = _
  after_results <;> rfl

set_option maxHeartbeats 4000000 in
/-- The region finds the end rows gathered. -/
theorem v17_eq (c : Dev nD) : V m c main_v17 = rowsE m c := by
  show StableHlo.after hostOps0 (fun b => m (c, b)) (Proc.devRef .tc main_v17) = _
  after_results <;> rfl

/-- The upper half of the first weight: rows 0 … 63. -/
theorem v18_apply (c : Dev nD) (k j : Fin 64) :
    (V m c main_v18 : Vec Ideal S64x64 .f32) (ix2 k j) = (m ((c.tc : Thread nD τ).loc main_arg2) : Vec Ideal S128x64 .f32) (ix2 (Fin.castAdd 64 k) j) := by
  have e : (V m c main_v18 : Vec Ideal S64x64 .f32)
      = extractStridedSlice S64x64 ![0, 0] (m ((c.tc : Thread nD τ).loc main_arg2) : Vec Ideal S128x64 .f32) slices_S128x64_S64x64_0_0 := by
    show StableHlo.after hostOps0 (fun b => m (c, b)) (Proc.devRef .tc main_v18) = _
    after_results <;> rfl
  rw [e]
  exact slice2_axis0_apply 0 _ slices_S128x64_S64x64_0_0 k j (Fin.castAdd 64 k) (by simp)

/-- The lower half of the first weight: rows 64 … 127. -/
theorem v19_apply (c : Dev nD) (k j : Fin 64) :
    (V m c main_v19 : Vec Ideal S64x64 .f32) (ix2 k j) = (m ((c.tc : Thread nD τ).loc main_arg2) : Vec Ideal S128x64 .f32) (ix2 (Fin.natAdd 64 k) j) := by
  have e : (V m c main_v19 : Vec Ideal S64x64 .f32)
      = extractStridedSlice S64x64 ![64, 0] (m ((c.tc : Thread nD τ).loc main_arg2) : Vec Ideal S128x64 .f32) slices_S128x64_S64x64_64_0 := by
    show StableHlo.after hostOps0 (fun b => m (c, b)) (Proc.devRef .tc main_v19) = _
    after_results <;> rfl
  rw [e]
  exact slice2_axis0_apply 64 _ slices_S128x64_S64x64_64_0 k j (Fin.natAdd 64 k) rfl

/-- A vector of 64 reshaped to one row reads its entry j at (0, j). -/
theorem v20_apply (c : Dev nD) (j : Fin 64) :
    (V m c main_v20 : Vec Ideal S1x64 .f32) (ix2 (0 : Fin 1) j) = (m ((c.tc : Thread nD τ).loc main_arg3) : Vec Ideal S64 .f32) (ix1 j) := by
  have e : (V m c main_v20 : Vec Ideal S1x64 .f32) = shapeCast S1x64 (m ((c.tc : Thread nD τ).loc main_arg3) : Vec Ideal S64 .f32) shapeCasts_S64_S1x64 := by
    show StableHlo.after hostOps0 (fun b => m (c, b)) (Proc.devRef .tc main_v20) = _
    after_results <;> rfl
  rw [e]
  exact shapeCast_a_1a_apply _ shapeCasts_S64_S1x64 0 j

/-- A vector of 64 reshaped to one row reads its entry j at (0, j). -/
theorem v21_apply (c : Dev nD) (j : Fin 64) :
    (V m c main_v21 : Vec Ideal S1x64 .f32) (ix2 (0 : Fin 1) j) = (m ((c.tc : Thread nD τ).loc main_arg4) : Vec Ideal S64 .f32) (ix1 j) := by
  have e : (V m c main_v21 : Vec Ideal S1x64 .f32) = shapeCast S1x64 (m ((c.tc : Thread nD τ).loc main_arg4) : Vec Ideal S64 .f32) shapeCasts_S64_S1x64 := by
    show StableHlo.after hostOps0 (fun b => m (c, b)) (Proc.devRef .tc main_v21) = _
    after_results <;> rfl
  rw [e]
  exact shapeCast_a_1a_apply _ shapeCasts_S64_S1x64 0 j

/-- A vector of 64 reshaped to one row reads its entry j at (0, j). -/
theorem v22_apply (c : Dev nD) (j : Fin 64) :
    (V m c main_v22 : Vec Ideal S1x64 .f32) (ix2 (0 : Fin 1) j) = (m ((c.tc : Thread nD τ).loc main_arg5) : Vec Ideal S64 .f32) (ix1 j) := by
  have e : (V m c main_v22 : Vec Ideal S1x64 .f32) = shapeCast S1x64 (m ((c.tc : Thread nD τ).loc main_arg5) : Vec Ideal S64 .f32) shapeCasts_S64_S1x64 := by
    show StableHlo.after hostOps0 (fun b => m (c, b)) (Proc.devRef .tc main_v22) = _
    after_results <;> rfl
  rw [e]
  exact shapeCast_a_1a_apply _ shapeCasts_S64_S1x64 0 j

/-- A vector of 64 reshaped to one row reads its entry j at (0, j). -/
theorem v23_apply (c : Dev nD) (j : Fin 64) :
    (V m c main_v23 : Vec Ideal S1x64 .f32) (ix2 (0 : Fin 1) j) = (m ((c.tc : Thread nD τ).loc main_arg7) : Vec Ideal S64 .f32) (ix1 j) := by
  have e : (V m c main_v23 : Vec Ideal S1x64 .f32) = shapeCast S1x64 (m ((c.tc : Thread nD τ).loc main_arg7) : Vec Ideal S64 .f32) shapeCasts_S64_S1x64 := by
    show StableHlo.after hostOps0 (fun b => m (c, b)) (Proc.devRef .tc main_v23) = _
    after_results <;> rfl
  rw [e]
  exact shapeCast_a_1a_apply _ shapeCasts_S64_S1x64 0 j

/-- A vector of 64 reshaped to one row reads its entry j at (0, j). -/
theorem v24_apply (c : Dev nD) (j : Fin 64) :
    (V m c main_v24 : Vec Ideal S1x64 .f32) (ix2 (0 : Fin 1) j) = (m ((c.tc : Thread nD τ).loc main_arg8) : Vec Ideal S64 .f32) (ix1 j) := by
  have e : (V m c main_v24 : Vec Ideal S1x64 .f32) = shapeCast S1x64 (m ((c.tc : Thread nD τ).loc main_arg8) : Vec Ideal S64 .f32) shapeCasts_S64_S1x64 := by
    show StableHlo.after hostOps0 (fun b => m (c, b)) (Proc.devRef .tc main_v24) = _
    after_results <;> rfl
  rw [e]
  exact shapeCast_a_1a_apply _ shapeCasts_S64_S1x64 0 j

/-- A vector of 64 reshaped to one row reads its entry j at (0, j). -/
theorem v25_apply (c : Dev nD) (j : Fin 64) :
    (V m c main_v25 : Vec Ideal S1x64 .f32) (ix2 (0 : Fin 1) j) = (m ((c.tc : Thread nD τ).loc main_arg9) : Vec Ideal S64 .f32) (ix1 j) := by
  have e : (V m c main_v25 : Vec Ideal S1x64 .f32) = shapeCast S1x64 (m ((c.tc : Thread nD τ).loc main_arg9) : Vec Ideal S64 .f32) shapeCasts_S64_S1x64 := by
    show StableHlo.after hostOps0 (fun b => m (c, b)) (Proc.devRef .tc main_v25) = _
    after_results <;> rfl
  rw [e]
  exact shapeCast_a_1a_apply _ shapeCasts_S64_S1x64 0 j

/-- A vector of 64 reshaped to one row reads its entry j at (0, j). -/
theorem v26_apply (c : Dev nD) (j : Fin 64) :
    (V m c main_v26 : Vec Ideal S1x64 .f32) (ix2 (0 : Fin 1) j) = (m ((c.tc : Thread nD τ).loc main_arg11) : Vec Ideal S64 .f32) (ix1 j) := by
  have e : (V m c main_v26 : Vec Ideal S1x64 .f32) = shapeCast S1x64 (m ((c.tc : Thread nD τ).loc main_arg11) : Vec Ideal S64 .f32) shapeCasts_S64_S1x64 := by
    show StableHlo.after hostOps0 (fun b => m (c, b)) (Proc.devRef .tc main_v26) = _
    after_results <;> rfl
  rw [e]
  exact shapeCast_a_1a_apply _ shapeCasts_S64_S1x64 0 j

/-- A vector of 64 reshaped to one row reads its entry j at (0, j). -/
theorem v27_apply (c : Dev nD) (j : Fin 64) :
    (V m c main_v27 : Vec Ideal S1x64 .f32) (ix2 (0 : Fin 1) j) = (m ((c.tc : Thread nD τ).loc main_arg12) : Vec Ideal S64 .f32) (ix1 j) := by
  have e : (V m c main_v27 : Vec Ideal S1x64 .f32) = shapeCast S1x64 (m ((c.tc : Thread nD τ).loc main_arg12) : Vec Ideal S64 .f32) shapeCasts_S64_S1x64 := by
    show StableHlo.after hostOps0 (fun b => m (c, b)) (Proc.devRef .tc main_v27) = _
    after_results <;> rfl
  rw [e]
  exact shapeCast_a_1a_apply _ shapeCasts_S64_S1x64 0 j

/-- A vector of 64 reshaped to one row reads its entry j at (0, j). -/
theorem v28_apply (c : Dev nD) (j : Fin 64) :
    (V m c main_v28 : Vec Ideal S1x64 .f32) (ix2 (0 : Fin 1) j) = (m ((c.tc : Thread nD τ).loc main_arg13) : Vec Ideal S64 .f32) (ix1 j) := by
  have e : (V m c main_v28 : Vec Ideal S1x64 .f32) = shapeCast S1x64 (m ((c.tc : Thread nD τ).loc main_arg13) : Vec Ideal S64 .f32) shapeCasts_S64_S1x64 := by
    show StableHlo.after hostOps0 (fun b => m (c, b)) (Proc.devRef .tc main_v28) = _
    after_results <;> rfl
  rw [e]
  exact shapeCast_a_1a_apply _ shapeCasts_S64_S1x64 0 j

/-- The last bias, one number, reshaped to a 1 × 1 matrix. -/
theorem v29_apply (c : Dev nD) :
    (V m c main_v29 : Vec Ideal S1x1 .f32) (ix2 (0 : Fin 1) (0 : Fin 1)) = (m ((c.tc : Thread nD τ).loc main_arg15) : Vec Ideal S1 .f32) (ix1 (0 : Fin 1)) := by
  have e : (V m c main_v29 : Vec Ideal S1x1 .f32) = shapeCast S1x1 (m ((c.tc : Thread nD τ).loc main_arg15) : Vec Ideal S1 .f32) shapeCasts_S1_S1x1 := by
    show StableHlo.after hostOps0 (fun b => m (c, b)) (Proc.devRef .tc main_v29) = _
    after_results <;> rfl
  rw [e]
  exact shapeCast_a_1a_apply _ shapeCasts_S1_S1x1 0 0

end Cert.KernelArgs

end
-- ==== Proof.RefValue.lean ====
/-
  The reference's result, edge by edge.

  The reference gathers the two endpoint rows of every edge from the node table, lays them side by side as one row of
  128, and applies four dense layers to the whole 1000000-row matrix at once, the first three followed by a layer
  normalisation over the 64 columns, gain, bias and tanh, the last by the logistic function written as
  1 / (1 + exp (−x)). Read at edge `i` this is the per-edge function of the specification: a matrix product's entry is
  a sum over the contracted coordinate, a row sum is a sum over the 64 columns, every other operation acts entry by
  entry, and the 128-term sum of the first layer splits into the start row's 64 terms and the end row's 64 terms.
-/
import proofs.«152720_j59528246723026_1_alg».proof.Proof.Gen.ReferenceIdeal.Run
import proofs.«152720_j59528246723026_1_alg».proof.Proof.Spec
import proofs.«152720_j59528246723026_1_alg».proof.Proof.LibDot
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.RefValue

open Cert.ReferenceIdeal Cert.ReferenceIdeal.Gen Cert.ReferenceIdeal.Value
open Idealize.ShloMosaic Idealize.ShloMosaic.TcCoe Idealize.ShloMosaic.ValueIdx Idealize.ShloMosaic.StableHlo

/-! ## The layout operations of the reference read at an entry -/

section Layout
variable {α : Type}

/-- A column `[n, 1]` broadcast along the rows of `[n, m]` reads, at `(i, j)`, the column at `(i, 0)`. -/
theorem colBcast_apply {n m : Nat} (x : (⟨2, ![n, 1]⟩ : Shape).Idx → α)
    (h : (⟨2, ![n, 1]⟩ : Shape).BroadcastsInDim ⟨2, ![n, m]⟩ ![0, 1]) (i : Fin n) (j : Fin m) :
    broadcastInDim ⟨2, ![n, m]⟩ ![0, 1] h x (ix2 i j) = x (ix2 i (0 : Fin 1)) := by
  refine broadcastInDim_apply _ h x (ix2 i j) (ix2 i (0 : Fin 1)) fun a => ?_
  match a with
  | ⟨0, _⟩ =>
    show i.val = if n = 1 then 0 else i.val
    split
    · have := i.isLt; omega
    · rfl
  | ⟨1, _⟩ => rfl

/-- A vector `[n]` given a trailing unit axis reads, at `(i, u)`, the vector at `i`. -/
theorem keepdims_apply {n : Nat} (x : (⟨1, ![n]⟩ : Shape).Idx → α)
    (h : (⟨1, ![n]⟩ : Shape).BroadcastsInDim ⟨2, ![n, 1]⟩ ![0]) (i : Fin n) (u : Fin 1) :
    broadcastInDim ⟨2, ![n, 1]⟩ ![0] h x (ix2 i u) = x (ix1 i) := by
  refine broadcastInDim_apply _ h x (ix2 i u) (ix1 i) fun a => ?_
  match a with
  | ⟨0, _⟩ =>
    show i.val = if n = 1 then 0 else i.val
    split
    · have := i.isLt; omega
    · rfl

/-- A vector `[m]` given a leading unit axis and then repeated over `n` rows reads, at `(i, j)`, the vector at `j`. -/
theorem rowBcast_apply {n m : Nat} (x : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (i : Fin n) (j : Fin m) :
    broadcastInDim ⟨2, ![n, m]⟩ ![0, 1] h2 (broadcastInDim ⟨2, ![1, m]⟩ ![1] h1 x) (ix2 i j) = x (ix1 j) := by
  refine (broadcastInDim_apply _ h2 _ (ix2 i j) (ix2 (0 : Fin 1) j) fun a => ?_).trans ?_
  · match a with
    | ⟨0, _⟩ => rfl
    | ⟨1, _⟩ =>
      show j.val = if m = 1 then 0 else j.val
      split
      · have := j.isLt; omega
      · rfl
  · refine broadcastInDim_apply _ h1 x (ix2 (0 : Fin 1) j) (ix1 j) fun a => ?_
    match a with
    | ⟨0, _⟩ =>
      show j.val = if m = 1 then 0 else j.val
      split
      · have := j.isLt; omega
      · rfl

/-- A scalar broadcast to `[n, 1]` reads the scalar everywhere. -/
theorem scalarBcast_apply {n m : Nat} (x : (⟨0, ![]⟩ : Shape).Idx → α)
    (h : (⟨0, ![]⟩ : Shape).BroadcastsInDim ⟨2, ![n, m]⟩ ![]) (i : Fin n) (u : Fin m) :
    broadcastInDim ⟨2, ![n, m]⟩ ![] h x (ix2 i u) = x ix0 :=
  broadcastInDim_scalar_apply h x (ix2 i u)

/-- An `[n, 1]` column cast to the vector `[n]` reads, at `i`, the column at `(i, 0)`. -/
theorem dropCol_apply {n : Nat} (x : (⟨2, ![n, 1]⟩ : Shape).Idx → α)
    (h : (⟨2, ![n, 1]⟩ : Shape).ShapeCasts ⟨1, ![n]⟩) (i : Fin n) :
    shapeCast ⟨1, ![n]⟩ x h (ix1 i) = x (ix2 i (0 : Fin 1)) :=
  shapeCast_apply x h _ _ (by
    rw [Shape.rowMajor_val_two, Shape.rowMajor_val_one]
    show i.val * 1 + 0 = i.val
    omega)

end Layout

/-! ## The host's row sum and matrix product at the ideal values, read at an entry -/

section HostOps

/-- The host's sum over the columns of an `[n, 64]` block from the zero constant, kept as a column `[n, 1]`, is at
    row `i` the sum of that row's 64 entries. -/
theorem rowSum_apply (h : FVec Ideal ⟨2, ![1000000, 64]⟩ .f32)
    (hb : (⟨1, ![1000000]⟩ : Shape).BroadcastsInDim ⟨2, ![1000000, 1]⟩ ![0])
    (hr : (⟨2, ![1000000, 64]⟩ : Shape).ReducesTo [1] ⟨1, ![1000000]⟩) (h0 : 0 < (⟨0, ![]⟩ : Shape).numel)
    (i : Fin 1000000) (u : Fin 1) :
    broadcastInDim ⟨2, ![1000000, 1]⟩ ![0] hb
        (Host.reduceAdd (F := Ideal) h (constant ⟨0, ![]⟩ .f32 0x00000000#32) hr h0) (ix2 i u)
      = ∑ k : Fin 64, h (ix2 i k) := by
  refine (keepdims_apply _ hb i u).trans ?_
  refine (hostReduceAdd_apply h _ hr h0 (ix1 i)).trans ?_
  have hR : (⟨2, ![1000000, 64]⟩ : Shape).Reduces [1] ⟨1, ![1000000]⟩ := by decide
  refine (Ideal.hostReduceAdd_single hr hR h _ (ix1 i)).trans ?_
  rw [constant_apply, Ideal.ofBits_zero_f32, zero_add]
  refine Finset.sum_congr rfl fun k _ => congrArg h ?_
  funext a
  match a with
  | ⟨0, _⟩ => rfl
  | ⟨1, _⟩ => rfl

end HostOps

section Dot
open Cert.LibDot

/-- The host's product of an `M × K` by a `K × N` operand, the left contracted on its last axis and the right on its
    first, is at entry `(a, b)` the sum over the contracted coordinate of the operands' products. -/
theorem dot_10_apply {M K N : Nat} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ .f32) (B : FVec Ideal ⟨2, ![K, N]⟩ .f32)
    (a : Fin M) (b : Fin N) :
    Host.dotGeneral (F := Ideal) (φ₁ := .f32) (φ₂ := .f32) d prec A B (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.dotGeneral d prec .single A B (ix2 a b) = _
  rw [Ideal.dotGeneral_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Dot

section Concat
variable {α : Type}

/-- Two `[n, 64]` blocks laid side by side read, at a column among the first 64, the first block. -/
theorem concat_left_apply {n : Nat} (x₁ x₂ : (⟨2, ![n, 64]⟩ : Shape).Idx → α)
    (h : Shape.Concatenates [(⟨2, ![n, 64]⟩ : Shape), ⟨2, ![n, 64]⟩] ⟨2, ![n, 128]⟩ 1) (i : Fin n) (k : Fin 64) :
    concatenate ⟨2, ![n, 128]⟩ 1 [⟨⟨2, ![n, 64]⟩, x₁⟩, ⟨⟨2, ![n, 64]⟩, x₂⟩] h (ix2 i (Fin.castAdd 64 k)) = x₁ (ix2 i k) := by
  refine concatenate_pair_apply_left 1 x₁ x₂ h _ rfl (ix2 i k) fun b => ?_
  match b with
  | ⟨0, _⟩ => rfl
  | ⟨1, _⟩ => rfl

/-- … and at a column among the last 64, the second block. -/
theorem concat_right_apply {n : Nat} (x₁ x₂ : (⟨2, ![n, 64]⟩ : Shape).Idx → α)
    (h : Shape.Concatenates [(⟨2, ![n, 64]⟩ : Shape), ⟨2, ![n, 64]⟩] ⟨2, ![n, 128]⟩ 1) (i : Fin n) (k : Fin 64) :
    concatenate ⟨2, ![n, 128]⟩ 1 [⟨⟨2, ![n, 64]⟩, x₁⟩, ⟨⟨2, ![n, 64]⟩, x₂⟩] h (ix2 i (Fin.natAdd 64 k)) = x₂ (ix2 i k) := by
  refine concatenate_pair_apply_right 1 x₁ x₂ h _ rfl rfl (ix2 i k) (fun b hb => ?_) ?_
  · match b with
    | ⟨0, _⟩ => rfl
    | ⟨1, _⟩ => exact absurd rfl hb
  · show k.val + 64 = 64 + k.val
    omega

end Concat

/-! ## One layer of the reference: normalisation, gain, bias and tanh, then the next dense layer -/

section Layers

/-- The row means as the reference computes them: the row sums, as a column, divided by the constant 64. -/
theorem mean_apply (h : FVec Ideal S1000000x64 .f32) (i : Fin 1000000) (u : Fin 1) :
    Host.divf (F := Ideal) (broadcastInDim S1000000x1 ![0] bcast_S1000000_S1000000x1_0
        (Host.reduceAdd (F := Ideal) h (constant S_ .f32 0x00000000#32) reducesTo_S1000000x64_S1000000_d1 h_S_))
      (broadcastInDim S1000000x1 ![] bcast_S_S1000000x1 (constant S_ .f32 0x42800000#32)) (ix2 i u)
      = Spec.mean fun k => h (ix2 i k) := by
  refine (hostDivf_apply _ _ _).trans ?_
  rw [rowSum_apply, scalarBcast_apply, constant_apply]
  rfl

/-- The reciprocal root of the mean square of a block `c`, plus ε, as the reference computes it. -/
theorem rstd_apply (c : FVec Ideal S1000000x64 .f32) (i : Fin 1000000) (u : Fin 1) :
    Host.rsqrt (F := Ideal) (addf (Host.divf (broadcastInDim S1000000x1 ![0] bcast_S1000000_S1000000x1_0
        (Host.reduceAdd (F := Ideal) (mulf c c) (constant S_ .f32 0x00000000#32) reducesTo_S1000000x64_S1000000_d1 h_S_))
      (broadcastInDim S1000000x1 ![] bcast_S_S1000000x1 (constant S_ .f32 0x42800000#32)))
      (broadcastInDim S1000000x1 ![] bcast_S_S1000000x1 (constant S_ .f32 0x3727C5AC#32))) (ix2 i u)
      = Ideal.rsqrt (Ideal.div (∑ k : Fin 64, c (ix2 i k) * c (ix2 i k)) Spec.n64 + Spec.eps) := by
  show Ideal.rsqrt _ = _
  refine congrArg Ideal.rsqrt ?_
  refine (addf_apply _ _ _).trans ?_
  rw [hostDivf_apply, rowSum_apply, scalarBcast_apply, scalarBcast_apply, constant_apply, constant_apply]
  rfl

end Layers

section Layers2

/-- Normalisation, gain, bias and tanh of a block `h`, the mean column `m` and the centred block `c` being the
    reference's own terms of `h`: at `(i, j)` the specification's `normAct` of row `i`. -/
theorem normAct_apply (h c : FVec Ideal S1000000x64 .f32) (m : FVec Ideal S1000000x1 .f32) (g bt : FVec Ideal S64 .f32)
    (hm : m = Host.divf (F := Ideal) (broadcastInDim S1000000x1 ![0] bcast_S1000000_S1000000x1_0
        (Host.reduceAdd (F := Ideal) h (constant S_ .f32 0x00000000#32) reducesTo_S1000000x64_S1000000_d1 h_S_))
      (broadcastInDim S1000000x1 ![] bcast_S_S1000000x1 (constant S_ .f32 0x42800000#32)))
    (hc : c = subf h (broadcastInDim S1000000x64 ![0, 1] bcast_S1000000x1_S1000000x64_0_1 m))
    (i : Fin 1000000) (j : Fin 64) :
    Host.tanh (F := Ideal) (addf (mulf (mulf (subf h (broadcastInDim S1000000x64 ![0, 1] bcast_S1000000x1_S1000000x64_0_1 m))
        (broadcastInDim S1000000x64 ![0, 1] bcast_S1000000x1_S1000000x64_0_1
          (Host.rsqrt (F := Ideal) (addf (Host.divf (broadcastInDim S1000000x1 ![0] bcast_S1000000_S1000000x1_0
              (Host.reduceAdd (F := Ideal) (mulf c c) (constant S_ .f32 0x00000000#32) reducesTo_S1000000x64_S1000000_d1 h_S_))
            (broadcastInDim S1000000x1 ![] bcast_S_S1000000x1 (constant S_ .f32 0x42800000#32)))
            (broadcastInDim S1000000x1 ![] bcast_S_S1000000x1 (constant S_ .f32 0x3727C5AC#32))))))
        (broadcastInDim S1000000x64 ![0, 1] bcast_S1x64_S1000000x64_0_1 (broadcastInDim S1x64 ![1] bcast_S64_S1x64_1 g)))
      (broadcastInDim S1000000x64 ![0, 1] bcast_S1x64_S1000000x64_0_1 (broadcastInDim S1x64 ![1] bcast_S64_S1x64_1 bt))) (ix2 i j)
      = Spec.normAct (fun k => h (ix2 i k)) (fun k => g (ix1 k)) (fun k => bt (ix1 k)) j := by
  have hmean : ∀ u : Fin 1, m (ix2 i u) = Spec.mean fun k => h (ix2 i k) := fun u => by
    rw [hm]; exact mean_apply h i u
  have hcen : ∀ k : Fin 64, c (ix2 i k) = Spec.centred (fun k => h (ix2 i k)) k := fun k => by
    rw [hc, subf_apply, colBcast_apply, hmean]; rfl
  show Ideal.tanh _ = _
  unfold Spec.normAct Spec.scaled
  refine congrArg Ideal.tanh ?_
  rw [addf_apply, mulf_apply, mulf_apply, rowBcast_apply, rowBcast_apply, colBcast_apply, rstd_apply, ← hc, hcen]
  unfold Spec.varEps
  simp only [hcen]

/-- A dense layer of the reference on an activation block: the product with a 64 × 64 matrix plus the bias row. -/
theorem dense_apply (a : FVec Ideal S1000000x64 .f32) (W : FVec Ideal S64x64 .f32) (b : FVec Ideal S64 .f32)
    (r : Fin 64 → EReal) (i : Fin 1000000) (hr : ∀ k, a (ix2 i k) = r k) (j : Fin 64) :
    addf (Host.dotGeneral (F := Ideal) (φ₁ := .f32) (φ₂ := .f32) dot_S1000000x64_S64x64_S1000000x64_1_0_0_1_n_n none a W)
      (broadcastInDim S1000000x64 ![0, 1] bcast_S1x64_S1000000x64_0_1 (broadcastInDim S1x64 ![1] bcast_S64_S1x64_1 b)) (ix2 i j)
      = Spec.dense r (fun k j => W (ix2 k j)) (fun j => b (ix1 j)) j := by
  rw [addf_apply, rowBcast_apply, dot_10_apply _ rfl rfl rfl rfl rfl rfl]
  unfold Spec.dense
  simp only [hr]

end Layers2

section Ends

/-- The first dense layer: the two gathered blocks side by side against the 128 × 64 matrix, plus the bias row, is at
    `(i, j)` the specification's split form on the two rows. -/
theorem first_apply (xs xe : FVec Ideal S1000000x64 .f32) (W : FVec Ideal S128x64 .f32) (b : FVec Ideal S64 .f32)
    (i : Fin 1000000) (j : Fin 64) :
    addf (Host.dotGeneral (F := Ideal) (φ₁ := .f32) (φ₂ := .f32) dot_S1000000x128_S128x64_S1000000x64_1_0_0_1_n_n none
        (concatenate S1000000x128 1 [⟨S1000000x64, xs⟩, ⟨S1000000x64, xe⟩] concatenates_S1000000x64_S1000000x64_S1000000x128_d1) W)
      (broadcastInDim S1000000x64 ![0, 1] bcast_S1x64_S1000000x64_0_1 (broadcastInDim S1x64 ![1] bcast_S64_S1x64_1 b)) (ix2 i j)
      = Spec.first (fun k => xs (ix2 i k)) (fun k => xe (ix2 i k)) (fun k j => W (ix2 (Fin.castAdd 64 k) j))
          (fun k j => W (ix2 (Fin.natAdd 64 k) j)) (fun j => b (ix1 j)) j := by
  rw [addf_apply, rowBcast_apply, dot_10_apply _ rfl rfl rfl rfl rfl rfl, Spec.sum_128_split]
  unfold Spec.first
  simp only [concat_left_apply, concat_right_apply]

/-- The output unit: the product with the 64 × 1 column plus the bias, through 1 / (1 + exp (−x)), the column then
    read as a vector. -/
theorem head_apply (a : FVec Ideal S1000000x64 .f32) (w : FVec Ideal S64x1 .f32) (b : FVec Ideal S1 .f32)
    (r : Fin 64 → EReal) (i : Fin 1000000) (hr : ∀ k, a (ix2 i k) = r k) :
    shapeCast S1000000 (Host.divf (F := Ideal) (broadcastInDim S1000000x1 ![] bcast_S_S1000000x1 (constant S_ .f32 0x3F800000#32))
      (addf (broadcastInDim S1000000x1 ![] bcast_S_S1000000x1 (constant S_ .f32 0x3F800000#32))
        (Host.exp (Host.negf (addf
          (Host.dotGeneral (F := Ideal) (φ₁ := .f32) (φ₂ := .f32) dot_S1000000x64_S64x1_S1000000x1_1_0_0_1_n_n none a w)
          (broadcastInDim S1000000x1 ![0, 1] bcast_S1x1_S1000000x1_0_1 (broadcastInDim S1x1 ![1] bcast_S1_S1x1_1 b)))))))
      shapeCasts_S1000000x1_S1000000 (ix1 i)
      = Spec.head r (fun k => w (ix2 k (0 : Fin 1))) (b (ix1 (0 : Fin 1))) := by
  refine (dropCol_apply _ _ i).trans ?_
  refine (hostDivf_apply _ _ _).trans ?_
  rw [addf_apply, scalarBcast_apply, constant_apply, Ideal.ofBits_one_f32]
  show Ideal.div 1 (1 + Ideal.exp (-(_))) = _
  rw [addf_apply, rowBcast_apply, dot_10_apply _ rfl rfl rfl rfl rfl rfl]
  unfold Spec.head Ideal.logistic
  simp only [hr]

end Ends

variable (V0 : Valuation τ sig (Elt Ideal))

/-- The rows of the node table at the edges' start nodes (negative indices wrapped, then the host's gather). -/
def rowsS : FVec Ideal S1000000x64 .f32 :=
  Host.gather gather_S100000x64_S1000000x1_S1000000x64_1_0_n_n_0_1_164 (V0 (Proc.devRef .tc main_arg0)) (broadcastInDim S1000000x1 ![0] bcast_S1000000_S1000000x1_0 (select (cmpi .slt (res_main_v1 V0) (broadcastInDim S1000000 ![] bcast_S_S1000000 (constantI S_ 32 0#32))) (addi (res_main_v1 V0) (broadcastInDim S1000000 ![] bcast_S_S1000000 (constantI S_ 32 100000#32))) (res_main_v1 V0)))

/-- The rows of the node table at the edges' end nodes. -/
def rowsE : FVec Ideal S1000000x64 .f32 :=
  Host.gather gather_S100000x64_S1000000x1_S1000000x64_1_0_n_n_0_1_164 (V0 (Proc.devRef .tc main_arg0)) (broadcastInDim S1000000x1 ![0] bcast_S1000000_S1000000x1_0 (select (cmpi .slt (res_main_v3 V0) (broadcastInDim S1000000 ![] bcast_S_S1000000 (constantI S_ 32 0#32))) (addi (res_main_v3 V0) (broadcastInDim S1000000 ![] bcast_S_S1000000 (constantI S_ 32 100000#32))) (res_main_v3 V0)))

/-- The reference's result array as a term of the argument arrays (the run's own term, over any contents `V0`). -/
def out : FVec Ideal S1000000 .f32 :=
  shapeCast _ (Host.divf (broadcastInDim S1000000x1 ![] bcast_S_S1000000x1 (constant S_ .f32 0x3F800000#32)) (addf (broadcastInDim S1000000x1 ![] bcast_S_S1000000x1 (constant S_ .f32 0x3F800000#32)) (Host.exp (Host.negf (addf (Host.dotGeneral (φ₁ := .f32) (φ₂ := .f32) dot_S1000000x64_S64x1_S1000000x1_1_0_0_1_n_n none (Host.tanh (addf (mulf (mulf (subf (res_main_v80 V0) (broadcastInDim S1000000x64 ![0, 1] bcast_S1000000x1_S1000000x64_0_1 (res_main_v84 V0))) (broadcastInDim S1000000x64 ![0, 1] bcast_S1000000x1_S1000000x64_0_1 (Host.rsqrt (addf (Host.divf (broadcastInDim S1000000x1 ![0] bcast_S1000000_S1000000x1_0 (Host.reduceAdd (mulf (res_main_v86 V0) (res_main_v86 V0)) (constant S_ .f32 0x00000000#32) reducesTo_S1000000x64_S1000000_d1 h_S_)) (broadcastInDim S1000000x1 ![] bcast_S_S1000000x1 (constant S_ .f32 0x42800000#32))) (broadcastInDim S1000000x1 ![] bcast_S_S1000000x1 (constant S_ .f32 0x3727C5AC#32)))))) (broadcastInDim S1000000x64 ![0, 1] bcast_S1x64_S1000000x64_0_1 (broadcastInDim S1x64 ![1] bcast_S64_S1x64_1 (V0 (Proc.devRef .tc main_arg12))))) (broadcastInDim S1000000x64 ![0, 1] bcast_S1x64_S1000000x64_0_1 (broadcastInDim S1x64 ![1] bcast_S64_S1x64_1 (V0 (Proc.devRef .tc main_arg13)))))) (V0 (Proc.devRef .tc main_arg14) : FVec Ideal S64x1 .f32)) (broadcastInDim S1000000x1 ![0, 1] bcast_S1x1_S1000000x1_0_1 (broadcastInDim S1x1 ![1] bcast_S1_S1x1_1 (V0 (Proc.devRef .tc main_arg15))))))))) shapeCasts_S1000000x1_S1000000

/-- The reference's result at edge `i` is the per-edge function of the two gathered rows and the weights. -/
theorem out_apply (i : Fin 1000000) :
    out V0 (ix1 i) = Spec.rest
      (Spec.first (fun k => rowsS V0 (ix2 i k)) (fun k => rowsE V0 (ix2 i k))
        (fun k j => (V0 (Proc.devRef .tc main_arg2) : FVec Ideal S128x64 .f32) (ix2 (Fin.castAdd 64 k) j))
        (fun k j => (V0 (Proc.devRef .tc main_arg2) : FVec Ideal S128x64 .f32) (ix2 (Fin.natAdd 64 k) j))
        (fun j => (V0 (Proc.devRef .tc main_arg3) : FVec Ideal S64 .f32) (ix1 j)))
      (fun j => (V0 (Proc.devRef .tc main_arg4) : FVec Ideal S64 .f32) (ix1 j))
      (fun j => (V0 (Proc.devRef .tc main_arg5) : FVec Ideal S64 .f32) (ix1 j))
      (fun k j => (V0 (Proc.devRef .tc main_arg6) : FVec Ideal S64x64 .f32) (ix2 k j))
      (fun j => (V0 (Proc.devRef .tc main_arg7) : FVec Ideal S64 .f32) (ix1 j))
      (fun j => (V0 (Proc.devRef .tc main_arg8) : FVec Ideal S64 .f32) (ix1 j))
      (fun j => (V0 (Proc.devRef .tc main_arg9) : FVec Ideal S64 .f32) (ix1 j))
      (fun k j => (V0 (Proc.devRef .tc main_arg10) : FVec Ideal S64x64 .f32) (ix2 k j))
      (fun j => (V0 (Proc.devRef .tc main_arg11) : FVec Ideal S64 .f32) (ix1 j))
      (fun j => (V0 (Proc.devRef .tc main_arg12) : FVec Ideal S64 .f32) (ix1 j))
      (fun j => (V0 (Proc.devRef .tc main_arg13) : FVec Ideal S64 .f32) (ix1 j))
      (fun k => (V0 (Proc.devRef .tc main_arg14) : FVec Ideal S64x1 .f32) (ix2 k (0 : Fin 1)))
      ((V0 (Proc.devRef .tc main_arg15) : FVec Ideal S1 .f32) (ix1 (0 : Fin 1))) := by
  -- the first dense layer at row `i`
  have H1 : ∀ j : Fin 64, res_main_v22 V0 (ix2 i j) = Spec.first (fun k => rowsS V0 (ix2 i k)) (fun k => rowsE V0 (ix2 i k))
      (fun k j => (V0 (Proc.devRef .tc main_arg2) : FVec Ideal S128x64 .f32) (ix2 (Fin.castAdd 64 k) j))
      (fun k j => (V0 (Proc.devRef .tc main_arg2) : FVec Ideal S128x64 .f32) (ix2 (Fin.natAdd 64 k) j))
      (fun j => (V0 (Proc.devRef .tc main_arg3) : FVec Ideal S64 .f32) (ix1 j)) j := fun j =>
    first_apply (rowsS V0) (rowsE V0) (V0 (Proc.devRef .tc main_arg2)) (V0 (Proc.devRef .tc main_arg3)) i j
  -- the second
  have H2 := fun j : Fin 64 => dense_apply _ (V0 (Proc.devRef .tc main_arg6)) (V0 (Proc.devRef .tc main_arg7)) _ i
    (fun k => normAct_apply (res_main_v22 V0) (res_main_v28 V0) (res_main_v26 V0) (V0 (Proc.devRef .tc main_arg4))
      (V0 (Proc.devRef .tc main_arg5)) rfl rfl i k) j
  -- the third
  have H3 := fun j : Fin 64 => dense_apply _ (V0 (Proc.devRef .tc main_arg10)) (V0 (Proc.devRef .tc main_arg11)) _ i
    (fun k => normAct_apply (res_main_v51 V0) (res_main_v57 V0) (res_main_v55 V0) (V0 (Proc.devRef .tc main_arg8))
      (V0 (Proc.devRef .tc main_arg9)) rfl rfl i k) j
  -- the output unit
  have H4 := head_apply _ (V0 (Proc.devRef .tc main_arg14)) (V0 (Proc.devRef .tc main_arg15)) _ i
    (fun k => normAct_apply (res_main_v80 V0) (res_main_v86 V0) (res_main_v84 V0) (V0 (Proc.devRef .tc main_arg12))
      (V0 (Proc.devRef .tc main_arg13)) rfl rfl i k)
  have E1 : (fun j => res_main_v22 V0 (ix2 i j)) = _ := funext H1
  have E2 : (fun j => res_main_v51 V0 (ix2 i j)) = _ := funext H2
  have E3 : (fun j => res_main_v80 V0 (ix2 i j)) = _ := funext H3
  rw [E3, E2, E1] at H4
  exact H4

end Cert.RefValue

end
-- ==== Proof.lean ====
/-
  The certificate: the gathered-pair edge network computed block by block in a kernel equals the reference's
  whole-array computation, at the ideal values.

  Both programs wrap negative node indices and gather, for each of the 1000000 edges, the node table's rows at the
  edge's two endpoints; this part is the same text in both and is carried as two opaque arrays. The kernel then takes
  the edges 8000 at a time and computes, per edge, four dense layers with layer normalisation and tanh between them
  and a logistic at the end, the first layer as the start row times the upper half of the weight plus the end row
  times its lower half. The reference lays the two rows side by side and multiplies by the whole weight: the same
  128-term sum, split. Every later operation is the same on both sides, entry by entry. So each output entry is one
  function of the edge's two rows and the weights (the specification's), on both sides; no finiteness is needed.

  The frames are the generated ones (the reference's is its generated run with the result dropped); nothing was
  rewritten by the idealisation, so `preserves` asks nothing.
-/
import proofs.«152720_j59528246723026_1_alg».proof.Defs
import proofs.«152720_j59528246723026_1_alg».proof.Proof.Gen.Kernel
import proofs.«152720_j59528246723026_1_alg».proof.Proof.Gen.Kernel.Skeleton
import proofs.«152720_j59528246723026_1_alg».proof.Proof.Gen.Kernel.Launch
import proofs.«152720_j59528246723026_1_alg».proof.Proof.Gen.Kernel.Points
import proofs.«152720_j59528246723026_1_alg».proof.Proof.Gen.Kernel.Frame
import proofs.«152720_j59528246723026_1_alg».proof.Proof.Gen.KernelIdeal
import proofs.«152720_j59528246723026_1_alg».proof.Proof.Gen.KernelIdeal.Skeleton
import proofs.«152720_j59528246723026_1_alg».proof.Proof.Gen.KernelIdeal.Launch
import proofs.«152720_j59528246723026_1_alg».proof.Proof.Gen.KernelIdeal.Points
import proofs.«152720_j59528246723026_1_alg».proof.Proof.Gen.KernelIdeal.Frame
import proofs.«152720_j59528246723026_1_alg».proof.Proof.Gen.ReferenceIdeal
import proofs.«152720_j59528246723026_1_alg».proof.Proof.Gen.Pre_finite_inputs
import proofs.«152720_j59528246723026_1_alg».proof.Proof.Gen.ReferenceIdeal.Run
import proofs.«152720_j59528246723026_1_alg».proof.Proof.KernelArray
import proofs.«152720_j59528246723026_1_alg».proof.Proof.KernelArgs
import proofs.«152720_j59528246723026_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo

/-- From memories that agree on the node table and the edge list, the reference gathers the start rows the kernel's
    host program gathers: the same operations of the same arguments. -/
theorem rowsS_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : launchContents m' c (Proc.devRef .tc Cert.ReferenceIdeal.main_arg0) = m ((c.tc : Thread Cert.KernelIdeal.nD Cert.KernelIdeal.τ).loc Cert.KernelIdeal.main_arg0)) (h1 : launchContents m' c (Proc.devRef .tc Cert.ReferenceIdeal.main_arg1) = m ((c.tc : Thread Cert.KernelIdeal.nD Cert.KernelIdeal.τ).loc Cert.KernelIdeal.main_arg1)) :
    Cert.RefValue.rowsS (launchContents m' c) = Cert.KernelArgs.rowsS m c := by
  unfold Cert.RefValue.rowsS Cert.ReferenceIdeal.Value.res_main_v1 Cert.KernelArgs.rowsS Cert.KernelArgs.startIdx
  rw [h0, h1]
  rfl

/-- The end rows likewise. -/
theorem rowsE_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h0 : launchContents m' c (Proc.devRef .tc Cert.ReferenceIdeal.main_arg0) = m ((c.tc : Thread Cert.KernelIdeal.nD Cert.KernelIdeal.τ).loc Cert.KernelIdeal.main_arg0)) (h1 : launchContents m' c (Proc.devRef .tc Cert.ReferenceIdeal.main_arg1) = m ((c.tc : Thread Cert.KernelIdeal.nD Cert.KernelIdeal.τ).loc Cert.KernelIdeal.main_arg1)) :
    Cert.RefValue.rowsE (launchContents m' c) = Cert.KernelArgs.rowsE m c := by
  unfold Cert.RefValue.rowsE Cert.ReferenceIdeal.Value.res_main_v3 Cert.KernelArgs.rowsE Cert.KernelArgs.endIdx
  rw [h0, h1]
  rfl

/-- An edge's output in terms of the program's arguments: the arrays the region finds are the two gathered arrays, the
    two halves of the first weight, the bias and gain vectors as rows, and the other weights as they are. -/
theorem edgeOut_args (m : (ℓ : Loc Cert.KernelIdeal.nD Cert.KernelIdeal.τ Cert.KernelIdeal.sig) → Buf (Elt Ideal) ℓ) (c : Dev Cert.KernelIdeal.nD) (i : Fin 1000000) :
    Cert.KernelArray.edgeOut m c i = Spec.rest
      (Spec.first (fun k => Cert.KernelArgs.rowsS m c (ix2 i k)) (fun k => Cert.KernelArgs.rowsE m c (ix2 i k))
        (fun k j => (m ((c.tc : Thread Cert.KernelIdeal.nD Cert.KernelIdeal.τ).loc Cert.KernelIdeal.main_arg2) : Vec Ideal Cert.KernelIdeal.S128x64 .f32) (ix2 (Fin.castAdd 64 k) j))
        (fun k j => (m ((c.tc : Thread Cert.KernelIdeal.nD Cert.KernelIdeal.τ).loc Cert.KernelIdeal.main_arg2) : Vec Ideal Cert.KernelIdeal.S128x64 .f32) (ix2 (Fin.natAdd 64 k) j))
        (fun j => (m ((c.tc : Thread Cert.KernelIdeal.nD Cert.KernelIdeal.τ).loc Cert.KernelIdeal.main_arg3) : Vec Ideal Cert.KernelIdeal.S64 .f32) (ix1 j)))
      (fun j => (m ((c.tc : Thread Cert.KernelIdeal.nD Cert.KernelIdeal.τ).loc Cert.KernelIdeal.main_arg4) : Vec Ideal Cert.KernelIdeal.S64 .f32) (ix1 j)) (fun j => (m ((c.tc : Thread Cert.KernelIdeal.nD Cert.KernelIdeal.τ).loc Cert.KernelIdeal.main_arg5) : Vec Ideal Cert.KernelIdeal.S64 .f32) (ix1 j))
      (fun k j => (m ((c.tc : Thread Cert.KernelIdeal.nD Cert.KernelIdeal.τ).loc Cert.KernelIdeal.main_arg6) : Vec Ideal Cert.KernelIdeal.S64x64 .f32) (ix2 k j)) (fun j => (m ((c.tc : Thread Cert.KernelIdeal.nD Cert.KernelIdeal.τ).loc Cert.KernelIdeal.main_arg7) : Vec Ideal Cert.KernelIdeal.S64 .f32) (ix1 j)) (fun j => (m ((c.tc : Thread Cert.KernelIdeal.nD Cert.KernelIdeal.τ).loc Cert.KernelIdeal.main_arg8) : Vec Ideal Cert.KernelIdeal.S64 .f32) (ix1 j)) (fun j => (m ((c.tc : Thread Cert.KernelIdeal.nD Cert.KernelIdeal.τ).loc Cert.KernelIdeal.main_arg9) : Vec Ideal Cert.KernelIdeal.S64 .f32) (ix1 j))
      (fun k j => (m ((c.tc : Thread Cert.KernelIdeal.nD Cert.KernelIdeal.τ).loc Cert.KernelIdeal.main_arg10) : Vec Ideal Cert.KernelIdeal.S64x64 .f32) (ix2 k j)) (fun j => (m ((c.tc : Thread Cert.KernelIdeal.nD Cert.KernelIdeal.τ).loc Cert.KernelIdeal.main_arg11) : Vec Ideal Cert.KernelIdeal.S64 .f32) (ix1 j)) (fun j => (m ((c.tc : Thread Cert.KernelIdeal.nD Cert.KernelIdeal.τ).loc Cert.KernelIdeal.main_arg12) : Vec Ideal Cert.KernelIdeal.S64 .f32) (ix1 j)) (fun j => (m ((c.tc : Thread Cert.KernelIdeal.nD Cert.KernelIdeal.τ).loc Cert.KernelIdeal.main_arg13) : Vec Ideal Cert.KernelIdeal.S64 .f32) (ix1 j))
      (fun k => (m ((c.tc : Thread Cert.KernelIdeal.nD Cert.KernelIdeal.τ).loc Cert.KernelIdeal.main_arg14) : Vec Ideal Cert.KernelIdeal.S64x1 .f32) (ix2 k (0 : Fin 1)))
      ((m ((c.tc : Thread Cert.KernelIdeal.nD Cert.KernelIdeal.τ).loc Cert.KernelIdeal.main_arg15) : Vec Ideal Cert.KernelIdeal.S1 .f32) (ix1 (0 : Fin 1))) := by
  have e_v18 : (fun k j : Fin 64 => (Cert.KernelIdeal.Gen.V m c Cert.KernelIdeal.main_v18 : Vec Ideal Cert.KernelIdeal.S64x64 .f32) (ix2 k j))
      = fun k j => (m ((c.tc : Thread Cert.KernelIdeal.nD Cert.KernelIdeal.τ).loc Cert.KernelIdeal.main_arg2) : Vec Ideal Cert.KernelIdeal.S128x64 .f32) (ix2 (Fin.castAdd 64 k) j) :=
    funext fun k => funext fun j => Cert.KernelArgs.v18_apply m c k j
  have e_v19 : (fun k j : Fin 64 => (Cert.KernelIdeal.Gen.V m c Cert.KernelIdeal.main_v19 : Vec Ideal Cert.KernelIdeal.S64x64 .f32) (ix2 k j))
      = fun k j => (m ((c.tc : Thread Cert.KernelIdeal.nD Cert.KernelIdeal.τ).loc Cert.KernelIdeal.main_arg2) : Vec Ideal Cert.KernelIdeal.S128x64 .f32) (ix2 (Fin.natAdd 64 k) j) :=
    funext fun k => funext fun j => Cert.KernelArgs.v19_apply m c k j
  have e_v20 : (fun j : Fin 64 => (Cert.KernelIdeal.Gen.V m c Cert.KernelIdeal.main_v20 : Vec Ideal Cert.KernelIdeal.S1x64 .f32) (ix2 (0 : Fin 1) j)) = (fun j => (m ((c.tc : Thread Cert.KernelIdeal.nD Cert.KernelIdeal.τ).loc Cert.KernelIdeal.main_arg3) : Vec Ideal Cert.KernelIdeal.S64 .f32) (ix1 j)) :=
    funext fun j => Cert.KernelArgs.v20_apply m c j
  have e_v21 : (fun j : Fin 64 => (Cert.KernelIdeal.Gen.V m c Cert.KernelIdeal.main_v21 : Vec Ideal Cert.KernelIdeal.S1x64 .f32) (ix2 (0 : Fin 1) j)) = (fun j => (m ((c.tc : Thread Cert.KernelIdeal.nD Cert.KernelIdeal.τ).loc Cert.KernelIdeal.main_arg4) : Vec Ideal Cert.KernelIdeal.S64 .f32) (ix1 j)) :=
    funext fun j => Cert.KernelArgs.v21_apply m c j
  have e_v22 : (fun j : Fin 64 => (Cert.KernelIdeal.Gen.V m c Cert.KernelIdeal.main_v22 : Vec Ideal Cert.KernelIdeal.S1x64 .f32) (ix2 (0 : Fin 1) j)) = (fun j => (m ((c.tc : Thread Cert.KernelIdeal.nD Cert.KernelIdeal.τ).loc Cert.KernelIdeal.main_arg5) : Vec Ideal Cert.KernelIdeal.S64 .f32) (ix1 j)) :=
    funext fun j => Cert.KernelArgs.v22_apply m c j
  have e_v23 : (fun j : Fin 64 => (Cert.KernelIdeal.Gen.V m c Cert.KernelIdeal.main_v23 : Vec Ideal Cert.KernelIdeal.S1x64 .f32) (ix2 (0 : Fin 1) j)) = (fun j => (m ((c.tc : Thread Cert.KernelIdeal.nD Cert.KernelIdeal.τ).loc Cert.KernelIdeal.main_arg7) : Vec Ideal Cert.KernelIdeal.S64 .f32) (ix1 j)) :=
    funext fun j => Cert.KernelArgs.v23_apply m c j
  have e_v24 : (fun j : Fin 64 => (Cert.KernelIdeal.Gen.V m c Cert.KernelIdeal.main_v24 : Vec Ideal Cert.KernelIdeal.S1x64 .f32) (ix2 (0 : Fin 1) j)) = (fun j => (m ((c.tc : Thread Cert.KernelIdeal.nD Cert.KernelIdeal.τ).loc Cert.KernelIdeal.main_arg8) : Vec Ideal Cert.KernelIdeal.S64 .f32) (ix1 j)) :=
    funext fun j => Cert.KernelArgs.v24_apply m c j
  have e_v25 : (fun j : Fin 64 => (Cert.KernelIdeal.Gen.V m c Cert.KernelIdeal.main_v25 : Vec Ideal Cert.KernelIdeal.S1x64 .f32) (ix2 (0 : Fin 1) j)) = (fun j => (m ((c.tc : Thread Cert.KernelIdeal.nD Cert.KernelIdeal.τ).loc Cert.KernelIdeal.main_arg9) : Vec Ideal Cert.KernelIdeal.S64 .f32) (ix1 j)) :=
    funext fun j => Cert.KernelArgs.v25_apply m c j
  have e_v26 : (fun j : Fin 64 => (Cert.KernelIdeal.Gen.V m c Cert.KernelIdeal.main_v26 : Vec Ideal Cert.KernelIdeal.S1x64 .f32) (ix2 (0 : Fin 1) j)) = (fun j => (m ((c.tc : Thread Cert.KernelIdeal.nD Cert.KernelIdeal.τ).loc Cert.KernelIdeal.main_arg11) : Vec Ideal Cert.KernelIdeal.S64 .f32) (ix1 j)) :=
    funext fun j => Cert.KernelArgs.v26_apply m c j
  have e_v27 : (fun j : Fin 64 => (Cert.KernelIdeal.Gen.V m c Cert.KernelIdeal.main_v27 : Vec Ideal Cert.KernelIdeal.S1x64 .f32) (ix2 (0 : Fin 1) j)) = (fun j => (m ((c.tc : Thread Cert.KernelIdeal.nD Cert.KernelIdeal.τ).loc Cert.KernelIdeal.main_arg12) : Vec Ideal Cert.KernelIdeal.S64 .f32) (ix1 j)) :=
    funext fun j => Cert.KernelArgs.v27_apply m c j
  have e_v28 : (fun j : Fin 64 => (Cert.KernelIdeal.Gen.V m c Cert.KernelIdeal.main_v28 : Vec Ideal Cert.KernelIdeal.S1x64 .f32) (ix2 (0 : Fin 1) j)) = (fun j => (m ((c.tc : Thread Cert.KernelIdeal.nD Cert.KernelIdeal.τ).loc Cert.KernelIdeal.main_arg13) : Vec Ideal Cert.KernelIdeal.S64 .f32) (ix1 j)) :=
    funext fun j => Cert.KernelArgs.v28_apply m c j
  unfold Cert.KernelArray.edgeOut
  rw [Cert.KernelArgs.v10_eq, Cert.KernelArgs.v17_eq, e_v18, e_v19, e_v20, e_v21, e_v22, e_v23, e_v24, e_v25, e_v26, e_v27, e_v28,
    Cert.KernelArgs.v29_apply, Cert.KernelIdeal.Gen.V_main_arg6, Cert.KernelIdeal.Gen.V_main_arg10, Cert.KernelIdeal.Gen.V_main_arg14]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- At the ideal values both programs end with the result vector holding, at edge `i`, the per-edge function of the
    edge's two gathered rows and the weights. -/
theorem algebraic : Cert.algebraic_KernelIdeal_ReferenceIdeal := by
  intro m ρ m' ρ' _ hagree
  refine ⟨fun c => Cert.KernelArray.result m c, Cert.KernelArray.run m ρ, ?_⟩
  refine (θ_run Cert.ReferenceIdeal.defs _ _).mono (fun _ h c => ⟨(h c).1.trans ?_, (h c).2⟩) (Cert.ReferenceIdeal.Value.run (F := Ideal) m' ρ')
  show Cert.RefValue.out (launchContents m' c) = Cert.KernelArray.result m c
  funext y
  obtain ⟨i, rfl⟩ : ∃ i : Fin 1000000, y = ix1 i := ⟨y 0, eq_ix1 y⟩
  have a0 : launchContents m' c (Proc.devRef .tc Cert.ReferenceIdeal.main_arg0) = m ((c.tc : Thread Cert.KernelIdeal.nD Cert.KernelIdeal.τ).loc Cert.KernelIdeal.main_arg0) := (hagree c).1
  have a1 : launchContents m' c (Proc.devRef .tc Cert.ReferenceIdeal.main_arg1) = m ((c.tc : Thread Cert.KernelIdeal.nD Cert.KernelIdeal.τ).loc Cert.KernelIdeal.main_arg1) := (hagree c).2.1
  have a2 : launchContents m' c (Proc.devRef .tc Cert.ReferenceIdeal.main_arg2) = m ((c.tc : Thread Cert.KernelIdeal.nD Cert.KernelIdeal.τ).loc Cert.KernelIdeal.main_arg2) := (hagree c).2.2.1
  have a3 : launchContents m' c (Proc.devRef .tc Cert.ReferenceIdeal.main_arg3) = m ((c.tc : Thread Cert.KernelIdeal.nD Cert.KernelIdeal.τ).loc Cert.KernelIdeal.main_arg3) := (hagree c).2.2.2.1
  have a4 : launchContents m' c (Proc.devRef .tc Cert.ReferenceIdeal.main_arg4) = m ((c.tc : Thread Cert.KernelIdeal.nD Cert.KernelIdeal.τ).loc Cert.KernelIdeal.main_arg4) := (hagree c).2.2.2.2.1
  have a5 : launchContents m' c (Proc.devRef .tc Cert.ReferenceIdeal.main_arg5) = m ((c.tc : Thread Cert.KernelIdeal.nD Cert.KernelIdeal.τ).loc Cert.KernelIdeal.main_arg5) := (hagree c).2.2.2.2.2.1
  have a6 : launchContents m' c (Proc.devRef .tc Cert.ReferenceIdeal.main_arg6) = m ((c.tc : Thread Cert.KernelIdeal.nD Cert.KernelIdeal.τ).loc Cert.KernelIdeal.main_arg6) := (hagree c).2.2.2.2.2.2.1
  have a7 : launchContents m' c (Proc.devRef .tc Cert.ReferenceIdeal.main_arg7) = m ((c.tc : Thread Cert.KernelIdeal.nD Cert.KernelIdeal.τ).loc Cert.KernelIdeal.main_arg7) := (hagree c).2.2.2.2.2.2.2.1
  have a8 : launchContents m' c (Proc.devRef .tc Cert.ReferenceIdeal.main_arg8) = m ((c.tc : Thread Cert.KernelIdeal.nD Cert.KernelIdeal.τ).loc Cert.KernelIdeal.main_arg8) := (hagree c).2.2.2.2.2.2.2.2.1
  have a9 : launchContents m' c (Proc.devRef .tc Cert.ReferenceIdeal.main_arg9) = m ((c.tc : Thread Cert.KernelIdeal.nD Cert.KernelIdeal.τ).loc Cert.KernelIdeal.main_arg9) := (hagree c).2.2.2.2.2.2.2.2.2.1
  have a10 : launchContents m' c (Proc.devRef .tc Cert.ReferenceIdeal.main_arg10) = m ((c.tc : Thread Cert.KernelIdeal.nD Cert.KernelIdeal.τ).loc Cert.KernelIdeal.main_arg10) := (hagree c).2.2.2.2.2.2.2.2.2.2.1
  have a11 : launchContents m' c (Proc.devRef .tc Cert.ReferenceIdeal.main_arg11) = m ((c.tc : Thread Cert.KernelIdeal.nD Cert.KernelIdeal.τ).loc Cert.KernelIdeal.main_arg11) := (hagree c).2.2.2.2.2.2.2.2.2.2.2.1
  have a12 : launchContents m' c (Proc.devRef .tc Cert.ReferenceIdeal.main_arg12) = m ((c.tc : Thread Cert.KernelIdeal.nD Cert.KernelIdeal.τ).loc Cert.KernelIdeal.main_arg12) := (hagree c).2.2.2.2.2.2.2.2.2.2.2.2.1
  have a13 : launchContents m' c (Proc.devRef .tc Cert.ReferenceIdeal.main_arg13) = m ((c.tc : Thread Cert.KernelIdeal.nD Cert.KernelIdeal.τ).loc Cert.KernelIdeal.main_arg13) := (hagree c).2.2.2.2.2.2.2.2.2.2.2.2.2.1
  have a14 : launchContents m' c (Proc.devRef .tc Cert.ReferenceIdeal.main_arg14) = m ((c.tc : Thread Cert.KernelIdeal.nD Cert.KernelIdeal.τ).loc Cert.KernelIdeal.main_arg14) := (hagree c).2.2.2.2.2.2.2.2.2.2.2.2.2.2.1
  have a15 : launchContents m' c (Proc.devRef .tc Cert.ReferenceIdeal.main_arg15) = m ((c.tc : Thread Cert.KernelIdeal.nD Cert.KernelIdeal.τ).loc Cert.KernelIdeal.main_arg15) := (hagree c).2.2.2.2.2.2.2.2.2.2.2.2.2.2.2
  rw [Cert.KernelArray.result_apply, Cert.RefValue.out_apply, rowsS_agree m m' c a0 a1, rowsE_agree m m' c a0 a1,
    edgeOut_args m c i, a2, a3, a4, a5, a6, a7, a8, a9, a10, a11, a12, a13, a14, a15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
